-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192x16 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x16 : Shape := ⟨2, ![8192, 16]⟩
abbrev S_ : Shape := ⟨0, ![]⟩
abbrev S8192x1 : Shape := ⟨2, ![8192, 1]⟩
abbrev S8192x17 : Shape := ⟨2, ![8192, 17]⟩
abbrev S1024x128 : Shape := ⟨2, ![1024, 128]⟩
abbrev S1024x17 : Shape := ⟨2, ![1024, 17]⟩
abbrev S128x1024 : Shape := ⟨2, ![128, 1024]⟩
abbrev S1024x1024 : Shape := ⟨2, ![1024, 1024]⟩
abbrev S8192 : Shape := ⟨1, ![8192]⟩
abbrev S16 : Shape := ⟨1, ![16]⟩
abbrev S1x16 : Shape := ⟨2, ![1, 16]⟩

abbrev nBuf : Space → Nat
  | .hbm => 75
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S8192x16, .f32⟩
  | .hbm, ⟨3, _⟩ => ⟨S_, .f32⟩
  | .hbm, ⟨4, _⟩ => ⟨S8192x1, .f32⟩
  | .hbm, ⟨5, _⟩ => ⟨S8192x17, .f32⟩
  | .hbm, ⟨6, _⟩ => ⟨S8192x17, .f32⟩
  | .hbm, ⟨7, _⟩ => ⟨S8192x1, .f32⟩
  | .hbm, ⟨8, _⟩ => ⟨S8192, .f32⟩
  | .hbm, ⟨9, _⟩ => ⟨S8192x16, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192x16, .f32⟩
  | .hbm, ⟨15, _⟩ => ⟨S8192x16, .i1⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S16, .f32⟩
  | .hbm, ⟨30, _⟩ => ⟨S_, .f32⟩
  | .hbm, ⟨31, _⟩ => ⟨S8192x16, .f32⟩
  | .hbm, ⟨32, _⟩ => ⟨S8192x16, .i1⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S1x16, .f32⟩
  | .hbm, ⟨41, _⟩ => ⟨S_, .f32⟩
  | .hbm, ⟨42, _⟩ => ⟨S1x16, .f32⟩
  | .hbm, ⟨43, _⟩ => ⟨S1x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x16, .f32⟩
  | .hbm, ⟨49, _⟩ => ⟨S8192x16, .i1⟩
  | .hbm, ⟨50, _⟩ => ⟨S8192x16, .f32⟩
  | .hbm, ⟨51, _⟩ => ⟨S8192x16, .f32⟩
  | .hbm, ⟨52, _⟩ => ⟨S_, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .i1⟩
  | .hbm, ⟨63, _⟩ => ⟨S_, .f32⟩
  | .hbm, ⟨64, _⟩ => ⟨S16, .f32⟩
  | .hbm, ⟨65, _⟩ => ⟨S16, .i1⟩
  | .hbm, ⟨66, _⟩ => ⟨S16, .i1⟩
  | .hbm, ⟨67, _⟩ => ⟨S_, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x17, .f32⟩
  | .local _ .vmem, ⟨5, _⟩ => ⟨S1024x17, .f32⟩
  | .local _ .vmem, ⟨6, _⟩ => ⟨S1024x17, .f32⟩
  | .local _ .vmem, ⟨7, _⟩ => ⟨S1024x17, .f32⟩
  | .local _ .vmem, ⟨8, _⟩ => ⟨S1024x17, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x1 : S_.BroadcastsInDim S8192x1 (![] : Fin 0 → Fin S8192x1.rank)
  concatenates_S8192x1_S8192x16_S8192x17_d1 : Shape.Concatenates [S8192x1, S8192x16] S8192x17 1
  inb_S1024x17_S1024x17_0_0 : ∀ a, (![0, 0] : Fin 2 → Nat) a + S1024x17.size a ≤ S1024x17.size a
  h_S1024x17 : 0 < S1024x17.numel
  shapeCasts_S1024x17_S1024x17 : S1024x17.ShapeCasts S1024x17
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  slices_S8192x17_S8192x1_0_0 : S8192x17.Slices ![0, 0] S8192x1
  shapeCasts_S8192x1_S8192 : S8192x1.ShapeCasts S8192
  slices_S8192x17_S8192x16_0_1 : S8192x17.Slices ![0, 1] S8192x16
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  reducesTo_S8192x16_S16_d0 : S8192x16.ReducesTo [0] S16
  h_S_ : 0 < S_.numel
  bcast_S16_S1x16_1 : S16.BroadcastsInDim S1x16 (![1] : Fin 1 → Fin S1x16.rank)
  bcast_S_S1x16 : S_.BroadcastsInDim S1x16 (![] : Fin 0 → Fin S1x16.rank)
  bcast_S_S16 : S_.BroadcastsInDim S16 (![] : Fin 0 → Fin S16.rank)
  bcast_S1x16_S8192x16_0_1 : S1x16.BroadcastsInDim S8192x16 (![0, 1] : Fin 2 → Fin S8192x16.rank)
  reducesTo_S16_S_d0 : S16.ReducesTo [0] S_
  dot_S1024x128_S128x1024_S1024x1024_1_0_0_1_n_n_wf : DotDims.WF S1024x128 S128x1024 S1024x1024 [1] [0] [0] [1] [] []
  dot_S1024x1024_S1024x17_S1024x17_1_0_0_1_n_n_wf : DotDims.WF S1024x1024 S1024x17 S1024x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x17.size a ≤ S8192x17.size a
  hwx0_2 : ∀ i : grid0.Coords, EltTy.bits .f32 = 32 ∨ (Rect.block (s := S8192x17) S1024x17.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x17.size a ≤ S8192x17.size a
  hwx0_3 : ∀ i : grid0.Coords, EltTy.bits .f32 = 32 ∨ (Rect.block (s := S8192x17) S1024x17.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x17_S1024x17_1_0_0_1_n_n : DotDims S1024x1024 S1024x17 S1024x17 where
  lhsContracting := [1]
  rhsContracting := [0]
  lhsNonContracting := [0]
  rhsNonContracting := [1]
  lhsBatch := []
  rhsBatch := []
  wf := dot_S1024x1024_S1024x17_S1024x17_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x17.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x16 : Shape := ⟨2, ![8192, 16]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S16 : Shape := ⟨1, ![16]⟩
abbrev S1x16 : Shape := ⟨2, ![1, 16]⟩

abbrev nBuf : Space → Nat
  | .hbm => 87
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S8192x16, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x16, .f32⟩
  | .hbm, ⟨22, _⟩ => ⟨S8192x1, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192x16, .f32⟩
  | .hbm, ⟨27, _⟩ => ⟨S8192x16, .i1⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S_, .f32⟩
  | .hbm, ⟨41, _⟩ => ⟨S16, .f32⟩
  | .hbm, ⟨42, _⟩ => ⟨S_, .f32⟩
  | .hbm, ⟨43, _⟩ => ⟨S8192x16, .f32⟩
  | .hbm, ⟨44, _⟩ => ⟨S8192x16, .i1⟩
  | .hbm, ⟨45, _⟩ => ⟨S1x16, .f32⟩
  | .hbm, ⟨46, _⟩ => ⟨S_, .f32⟩
  | .hbm, ⟨47, _⟩ => ⟨S1x16, .f32⟩
  | .hbm, ⟨48, _⟩ => ⟨S1x16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S1x16, .f32⟩
  | .hbm, ⟨53, _⟩ => ⟨S_, .f32⟩
  | .hbm, ⟨54, _⟩ => ⟨S1x16, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S8192x16, .f32⟩
  | .hbm, ⟨61, _⟩ => ⟨S8192x16, .i1⟩
  | .hbm, ⟨62, _⟩ => ⟨S8192x16, .f32⟩
  | .hbm, ⟨63, _⟩ => ⟨S8192x16, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .i1⟩
  | .hbm, ⟨75, _⟩ => ⟨S_, .f32⟩
  | .hbm, ⟨76, _⟩ => ⟨S16, .f32⟩
  | .hbm, ⟨77, _⟩ => ⟨S16, .i1⟩
  | .hbm, ⟨78, _⟩ => ⟨S16, .i1⟩
  | .hbm, ⟨79, _⟩ => ⟨S_, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_call2_v0 : Ref sig .tc := ⟨.hbm, 56, rfl⟩
abbrev main_call2_v1 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_call3_v0 : Ref sig .tc := ⟨.hbm, 80, rfl⟩
abbrev main_call3_v1 : Ref sig .tc := ⟨.hbm, 81, rfl⟩
abbrev main_v55 : Ref sig .tc := ⟨.hbm, 82, rfl⟩
abbrev main_cst_17 : Ref sig .tc := ⟨.hbm, 83, rfl⟩
abbrev main_v56 : Ref sig .tc := ⟨.hbm, 84, rfl⟩
abbrev main_cst_18 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  bcast_S_S8192x1 : S_.BroadcastsInDim S8192x1 (![] : Fin 0 → Fin S8192x1.rank)
  reducesTo_S8192x16_S16_d0 : S8192x16.ReducesTo [0] S16
  bcast_S16_S1x16_1 : S16.BroadcastsInDim S1x16 (![1] : Fin 1 → Fin S1x16.rank)
  bcast_S_S1x16 : S_.BroadcastsInDim S1x16 (![] : Fin 0 → Fin S1x16.rank)
  bcast_S_S16 : S_.BroadcastsInDim S16 (![] : Fin 0 → Fin S16.rank)
  bcast_S1x16_S8192x16_0_1 : S1x16.BroadcastsInDim S8192x16 (![0, 1] : Fin 2 → Fin S8192x16.rank)
  reducesTo_S16_S_d0 : S16.ReducesTo [0] S_
  dot_S8192x128_S128x8192_S8192x8192_1_0_0_1_n_n_wf : DotDims.WF S8192x128 S128x8192 S8192x8192 [1] [0] [0] [1] [] []
  dot_S8192x8192_S8192x16_S8192x16_1_0_0_1_n_n_wf : DotDims.WF S8192x8192 S8192x16 S8192x16 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.K.Base.lean ====
/-
  What the frame and value proofs of the kernel program as printed share.

  @main is four host operations (the labels converted to floats, a column of ones, their concatenation `[1 | L]`), one
  pipelined region on an 8 × 8 grid, and a tail of host operations that reads the region's result. The region's body at
  grid point (i, j) reads row block i and row block j of the embeddings (two windows on ONE array) and row block j of
  `[1 | L]`, and adds into a scratch accumulator that it resets at j = 0 and copies to the output block i at j = 7.
  Here: the buffers' contents when the region is entered (`V`), @main reduced to the region continued by the tail
  (`hmain`), the tail's side facts, the windows' blocks (`iblk`) with the fact that every input's staging buffer holds
  its block at every point, the two branch conditions in closed form over the 64 points, where the output window is idle,
  and the names of the staging and scratch memrefs.
-/
import proofs.«129707_j15676630630501_1_alg».proof.Proof.Gen.Kernel.Launch
import proofs.«129707_j15676630630501_1_alg».proof.Proof.Gen.Kernel.Skeleton
import proofs.«129707_j15676630630501_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region CONTINUED BY the tail, the unscoped buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    (by simp only [List.Forall]; exact hostOps0_sub)
    (by simp only [List.Forall]; exact hostOps0_fresh) main_chain

/-- The tail touches unscoped TensorCore buffers only. -/
theorem sfx_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- It allocates nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (it is fetched only
    when the row block i changes; in between its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1 (row block j of the embeddings). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for input window 2 (row block j of `[1 | L]`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is copied out: the second grid coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is not copied out the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the output window is live. -/
theorem liveAt0_3 : ∀ t : Fin cfg0.N, cond0_1 (grid0.coords t) → cfg0.idle 3 (grid0.coords t) = false := by decide +kernel

/-! ## The staging and scratch memrefs -/

/-- One staging buffer of the output window, through which its contents are stated. -/
abbrev VO0_3 : View sig .tc .vmem S1024x17 .f32 := (Memref.whole cc0_stg3_0 : Memref sig .tc .vmem S1024x17 .f32).view
/-- Each window's current staging memref at point `t`, spelled as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x17 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1024x17 .f32 := Memref.whole cc0_scratch0
abbrev VS0_0 : View sig .tc .vmem S1024x17 .f32 := scM0_0.view

/-- The core's scoped buffers that are no staging buffer are the scratch accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.RunA.lean ====
/-
  The kernel body at a grid point with j = 0: the accumulator, found at anything, is reset to zeros and then holds zeros
  plus this point's partial product; nothing is stored into the output block, which is handed back as found. What the
  stores leave in the accumulator is the list of pieces the symbolic run finds.
-/
import proofs.«129707_j15676630630501_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (reset, no copy-out): on whole staging memrefs holding the three input blocks `x0 x1 x2`, the output's buffer
    at `xi3` and the accumulator at anything, the body runs to the continuation holding the inputs and the output's
    buffer as they were and the accumulator with its pieces `LS0` written. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i)
    (x0 : Vec F S1024x128 .f32) (x1 : Vec F S1024x128 .f32) (x2 : Vec F S1024x17 .f32) :
    Σ' (L3 : List (View.Piece (Elt F) S1024x17 .f32)), { LS0 : List (View.Piece (Elt F) S1024x17 .f32) //
      ∀ (xi3 : Vec F S1024x17 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨[], ?_, fun xi3 E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.RunB.lean ====
/-
  The kernel body at a grid point with 0 < j < 7: the accumulator, found at what the point before left, ends at that plus
  this point's partial product; nothing is stored into the output block.
-/
import proofs.«129707_j15676630630501_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (no reset, no copy-out): as case A, the accumulator found at `xs0`. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i)
    (x0 : Vec F S1024x128 .f32) (x1 : Vec F S1024x128 .f32) (x2 : Vec F S1024x17 .f32) (xs0 : Vec F S1024x17 .f32) :
    Σ' (L3 : List (View.Piece (Elt F) S1024x17 .f32)), { LS0 : List (View.Piece (Elt F) S1024x17 .f32) //
      ∀ (xi3 : Vec F S1024x17 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨[], ?_, fun xi3 E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.RunC.lean ====
/-
  The kernel body at a grid point with j = 7: the accumulator, found at what the point before left, ends at that plus
  this point's partial product, and the output block is stored whole with the accumulator's final contents.
-/
import proofs.«129707_j15676630630501_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (no reset, copy-out): the output's buffer found at anything ends with its pieces `L3` written. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i)
    (x0 : Vec F S1024x128 .f32) (x1 : Vec F S1024x128 .f32) (x2 : Vec F S1024x17 .f32) (xs0 : Vec F S1024x17 .f32) :
    Σ' (L3 : List (View.Piece (Elt F) S1024x17 .f32)), { LS0 : List (View.Piece (Elt F) S1024x17 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Frame.lean ====
/-
  What the accumulator and the output block hold after each grid point, the proof data of the one pipeline, and the
  body obligation.

  The 64 grid points are walked in row-major order, t = 8·i + j. At j = 0 the body clears the accumulator and adds this
  point's partial product (case A); at 0 < j < 7 it adds onto what the point before left (case B); at j = 7 it adds and
  copies the accumulator into the output block (case C). `outsAt0` states, by recursion on the point, the pair
  (output block, accumulator) after each point: each case's pieces read back, an accumulator carried from the point
  before in cases B and C. The invariant before point t is the accumulator at what point t − 1 left (before the first
  point: at anything). The embeddings' array stands behind two input windows, so the proof data holds it at the two
  halves of the full share; the other arrays are held whole.
-/
import proofs.«129707_j15676630630501_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults (the window is idle there). -/
def out0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) : Vec F S1024x17 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) (y : S1024x17.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x17.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) : Vec F S1024x17 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block either. -/
def out0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) : Vec F S1024x17 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) (y : S1024x17.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x17.size (by sl_kernel_rfl) y

/-- What case B leaves in the accumulator, found at `xs0`. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) : Vec F S1024x17 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store into the output block covers it. -/
theorem cover0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) (y : S1024x17.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x17.size (by sl_kernel_rfl) y

/-- What case C leaves in the output block. -/
def out0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) : Vec F S1024x17 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) (y : S1024x17.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x17.size (by sl_kernel_rfl) y

/-- What case C leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) : Vec F S1024x17 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the accumulator hold after each point -/

/-- The pair (output block's buffer, accumulator) after the body at position `n`: the case the point is in, run at the
    point's memrefs and input blocks, the accumulator of cases B and C found at what position `n - 1` left. -/
def outsAt0 (c : Dev nD) : (n : ℕ) → n < cfg0.N → Vec F S1024x17 .f32 × Vec F S1024x17 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at a point with j = 0. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point with 0 < j < 7: over what the point before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with j = 7: over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the accumulator at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the region finds them; after the body each input's buffer at its block, the output's at `outsAt0`'s
    first component; the invariant `PhiS`; nothing owed; the embeddings' array at the left half share for window 0 and
    the right half for window 1, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' memrefs hold their blocks; the closed forms say which case the point is in; the
    invariant hands the body the accumulator at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

end Cert.Kernel.Hand

end
-- ==== Proof.LibSharedAround.lean ====
/-
  The frame run of a one-region pipeline program whose INPUT windows may stand on one array, when @main goes on after
  the region with straight lines of host operations and the kernel carries a scratch from point to point.

  Two input windows on one array hold it at complementary shares for the length of the region, so at the region's exit
  the proof data's arrays are no longer whole buffers. The lines after the region run within ALL the core's unscoped
  buffers held whole; the certificate therefore owes, beside the entry split `hsplit`, the two converse entailments at
  the exit: the proof data's arrays after the last point make the distinct buffers behind them whole again at an exit
  valuation `WN` (`hjoin`), and those buffers whole at `WN` split back into the proof data's arrays (`hsplitN`); the
  buffers that bypass the region hold at `WN` what they held at the entry (`hrest`). The lines write no array
  (`hkeep`). The invariant is any the certificate states point by point, entered from the core's scoped buffers that
  are no staging buffer (`hin`) and giving them back after the last point (`hout`). The conclusion: every window's array
  ends at what the library computes from the proof data, and every buffer that bypasses the region ends at the lines'
  `StableHlo.after` from the exit valuation.
-/
import Idealize.ShloMosaic.Lib.Pipeline.FrameSuffix

noncomputable section

namespace Idealize.ShloMosaic.Pipeline.SharedAround

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

set_option backward.isDefEq.respectTransparency.types false in
/-- The lines after the region: from the region's exit — the boundary, the proof data's arrays after the last point, the
    bypassing buffers at the entry contents — the lines run within all the unscoped buffers, made whole at the exit
    valuation `WN` (`hjoin`), and hand back the arrays as the proof data holds them (`hsplitN`, the lines writing none:
    `hkeep`) and the bypassing buffers at the lines' `StableHlo.after` from `WN`. -/
theorem tail_shared (hwin : WinFacts₀ (cfg).spec) (c : Dev nD) (V₀ WN : Valuation τ sig Val)
    (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hjoin : (dats p c).arrays ((dats p c).arrAt · (cfg).N) ⊢ (arrBufs (cfg).spec c (fun b => WN (Proc.devRef .tc b)) : sProp 𝕄))
    (hsplitN : (arrBufs (cfg).spec c (fun b => WN (Proc.devRef .tc b)) : sProp 𝕄) ⊢ (dats p c).arrays ((dats p c).arrAt · (cfg).N))
    (hrest : ∀ b ∈ restRefs sig (cfg).spec, WN (Proc.devRef .tc b) = V₀ (Proc.devRef .tc b))
    (Q' : PUnit → sProp 𝕄) :
    iprop((iprop((dats p c).arrays ((dats p c).arrAt · (cfg).N)
              ∗ unscopedRest (Ix := Unit) (Name := ℕ) (U := UR sig nD τ) (Lvl := ℕ) (cfg).spec c (fun b => StableHlo.after opss.flatten WN (Proc.devRef .tc b))) -∗ Q' ⟨⟩)
        ∗ boundary (c.tc : Thread nD τ) ∗ (dats p c).arrays ((dats p c).arrAt · (cfg).N)
        ∗ unscopedRest (Ix := Unit) (Name := ℕ) (U := UR sig nD τ) (Lvl := ℕ) (cfg).spec c (fun b => V₀ (Proc.devRef .tc b)))
      ⊢ wp frame (wpE 𝔻 𝕍 (c.tc : Thread nD τ) none) Set.univ (chain (opss.map StableHlo.seq)) Q' := by
  classical
  have hU : ∀ W : Valuation τ sig Val, (StableHlo.held (c.tc : Thread nD τ) (ucRefs τ sig) W : sProp 𝕄)
      = iprop((arrBufs (cfg).spec c (fun b => W (Proc.devRef .tc b)) : sProp 𝕄)
          ∗ unscopedRest (Ix := Unit) (Name := ℕ) (U := UR sig nD τ) (Lvl := ℕ) (cfg).spec c (fun b => W (Proc.devRef .tc b))) := fun W => by
    rw [← unscopedBufs_held (Ix := Unit) (Name := ℕ) (U := UR sig nD τ) (Lvl := ℕ) c W]
    exact unscopedBufs_split₀ cfgs p hwin.arr_unscoped c _
  have hR : (unscopedRest (Ix := Unit) (Name := ℕ) (U := UR sig nD τ) (Lvl := ℕ) (cfg).spec c (fun b => V₀ (Proc.devRef .tc b)) : sProp 𝕄)
      = unscopedRest (Ix := Unit) (Name := ℕ) (U := UR sig nD τ) (Lvl := ℕ) (cfg).spec c (fun b => WN (Proc.devRef .tc b)) := by
    unfold unscopedRest
    exact bigSep_congr fun b hb => by dsimp only; rw [hrest b hb]
  have hA' : (arrBufs (cfg).spec c (fun b => StableHlo.after opss.flatten WN (Proc.devRef .tc b)) : sProp 𝕄)
      = arrBufs (cfg).spec c (fun b => WN (Proc.devRef .tc b)) := by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  rw [← List.append_nil (opss.map StableHlo.seq), hR]
  iintro ⟨Hk, Hb, HA, HR⟩
  iapply (wp_seqs_then (fun q => Cfg.toPCfg (Val := Val) (cfgs q)) defs₀ 𝒱₀ c (ucRefs τ sig) [] opss hsub hfresh WN) $$ [Hb HA HR]
  · isplitl [Hb]; · iexact Hb
    rw [hU]
    isplitl [HA]
    · iapply hjoin; iexact HA
    · iexact HR
  iintro Hb
  rw [chain_nil, wp_pure, hU, hA']
  imodintro
  iapply Hk
  icases Hb with ⟨-, HA, HR⟩
  isplitl [HA]
  · iapply hsplitN; iexact HA
  · iexact HR

/-- THE FRAME RUN around the region, windows sharing input arrays, the invariant tracking what the body carries: the
    layout facts are taken one by one, `hsplit` / `hjoin` / `hsplitN` say how the whole buffers behind the arrays and the
    proof data's arrays at their shares make one another at the entry and at the exit, and the lines `opss` after the
    region touch unscoped TensorCore buffers only, allocate nothing and write no array. -/
theorem θ_run_shared_around_track
    (hcell : Function.Injective (cellOf (nD := nD) (τ := τ) cfgs))
    (hwin : WinFacts₀ (cfg).spec)
    (hpos : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ WN : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => WN c (Proc.devRef .tc b)) : sProp 𝕄))
    (hsplitN : ∀ c, (arrBufs (cfg).spec c (fun b => WN c (Proc.devRef .tc b)) : sProp 𝕄) ⊢ (dats p c).arrays ((dats p c).arrAt · (cfg).N))
    (hrest : ∀ c, ∀ b ∈ restRefs sig (cfg).spec, WN c (Proc.devRef .tc b) = V₀ c (Proc.devRef .tc b))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (WN c) (Proc.devRef .tc b)) := by
  classical
  exact θ_run_region_noSem_pf_tail (fun q => Cfg.toPCfg (Val := Val) (cfgs q)) (fun q => (cfgs q).toPCfg_adm) dats () hcell p hwin (PreFacts.none _) emb₁ defs₀ 𝒱₀
    m g main (fun _ => chain (opss.map StableHlo.seq)) hbody hpos harr hstage howed
    (u₀ := initOf (cells cfgs hcell) (launchToks cfgs hcell))
    (hu₀ := (show (ownU _ : sProp 𝕄) ⊢ BI.own (emb₁ (initOf (cells cfgs hcell) (launchToks cfgs hcell))) from .rfl))
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (WN c) (Proc.devRef .tc b)))
    (hX := fun c => by
      rw [unscopedRestP_none]
      iintro HU
      isplitr; · iempintro
      iexact HU)
    (hin := fun c => (show _ ⊢ (scopedRest (Ix := Unit) (Name := ℕ) (U := UR sig nD τ) (Lvl := ℕ) (Val := Val) (cfg).spec c : sProp 𝕄) from by
      iintro ⟨-, -, HR⟩
      iexact HR).trans (hin c))
    (hout := fun c => (hout c).trans (by
      iintro HR
      isplitr; · iempintro
      iexact HR))
    (htail := fun c Q' => tail_shared cfgs dats p defs₀ 𝒱₀ hwin c (V₀ c) (WN c) opss hsub hfresh hkeep (hjoin c) (hsplitN c) (hrest c) Q')
    (QY := fun c s => ∀ b ∈ restRefs sig (cfg).spec, s.mem ((c.tc : Thread nD τ).loc b) = StableHlo.after opss.flatten (WN c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (WN c) (Proc.devRef .tc b)) s')
      isplitl [HU] <;> iassumption)
    (hQ := fun s h c => ⟨(h c).1, (h c).2.2⟩)

end Idealize.ShloMosaic.Pipeline.SharedAround

end
-- ==== Proof.K.Run.lean ====
/-
  The run of the kernel program as printed, from the body obligation to what memory holds at the end.

  When the region is entered the three distinct arrays behind its four windows are held whole. The embeddings' array is
  split into the two halves of the full share, one for each of the two windows that read it; the other two arrays pass
  whole. At the region's exit the inputs hold what they held (an input is never written), the halves are put together
  again, and the output array holds what the eight write-backs left. The tail then runs within all the unscoped buffers.
  Every weakly fair execution therefore terminates with every window's array at what the proof data computes and every
  other unscoped buffer at the tail's result from the exit contents; read at the two arguments this is the frame claim,
  read at the result buffer it is the value the tail computes from the output array.
-/
import proofs.«129707_j15676630630501_1_alg».proof.Proof.K.Frame
import proofs.«129707_j15676630630501_1_alg».proof.Proof.LibSharedAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs unscopedRest restRefs arrRef)

variable (m : (ℓ : Loc nD τ sig) → Buf (Elt F) ℓ) (ρ : Dev nD → PrngReg)

/-! ## The contents at the region's exit -/

open Classical in
/-- The core's buffer contents when the region is left: the output array at what the write-backs left, every other
    buffer as when the region was entered. -/
def WN (c : Dev nD) : Valuation τ sig (Elt F) :=
  Function.update (V0 m c) (Proc.devRef .tc main_v3) ((dats m 0 c).arrAt 3 cfg0.N)

theorem WN_v3 (c : Dev nD) : WN m c (Proc.devRef .tc main_v3) = (dats m 0 c).arrAt 3 cfg0.N := by
  unfold WN; exact Function.update_self _ _ _

theorem WN_of_ne (c : Dev nD) (b : Ref sig .tc) (hb : b ≠ main_v3) : WN m c (Proc.devRef .tc b) = V0 m c (Proc.devRef .tc b) := by
  unfold WN; exact Function.update_of_ne (fun e => hb (Proc.devRef_injective _ e)) _ _

/-! ## The arrays, one by one -/

/-- The distinct buffers behind the windows' arrays: the embeddings, the augmented labels, the output. -/
theorem arrBufs0_eq (c : Dev nD) (X : (b : Ref sig .tc) → Buf (Elt F) ((c : Thread nD τ).loc b)) :
    (arrBufs spec0 c X : sProp 𝕄)
      = iprop((((c : Thread nD τ).loc main_arg0) ↦{fullShare} X main_arg0) ∗ (((c : Thread nD τ).loc main_v2) ↦{fullShare} X main_v2)
          ∗ (((c : Thread nD τ).loc main_v3) ↦{fullShare} X main_v3)) := by
  unfold arrBufs
  exact bigSep_eq_bigSepL_of_eq [main_arg0, main_v2, main_v3] (by decide) (by decide) _

/-- The proof data's arrays: the embeddings twice, at the two halves of the full share; the others whole. -/
theorem arrays0_eq (c : Dev nD) (X : (w : Fin cfg0.W) → Buf (Elt F) ((cfg0.win w).arr.view.loc (c : Thread nD τ))) :
    ((dats m 0 c).arrays X : sProp 𝕄)
      = iprop((((c : Thread nD τ).loc main_arg0) ↦{fullShare.left} X 0) ∗ (((c : Thread nD τ).loc main_arg0) ↦{fullShare.right} X 1)
          ∗ (((c : Thread nD τ).loc main_v2) ↦{fullShare} X 2) ∗ (((c : Thread nD τ).loc main_v3) ↦{fullShare} X 3)) := by
  unfold Dat.arrays
  rw [bigSep_W0, (arr_whole0 0).set_eq_univ, (arr_whole0 2).set_eq_univ, (arr_whole0 3).set_eq_univ]
  rfl

/-- At the entry: the whole buffers make the proof data's arrays, the embeddings' array split along the share. -/
theorem hsplit (c : Dev nD) :
    (arrBufs spec0 c (fun b => V0 m c (Proc.devRef .tc b)) : sProp 𝕄) ⊢ (dats m 0 c).arrays ((dats m 0 c).arrAt · 0) := by
  rw [arrBufs0_eq, arrays0_eq]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

/-- At the exit: the two halves of the embeddings' array make it whole again; the output array is at its final contents. -/
theorem hjoin (c : Dev nD) :
    (dats m 0 c).arrays ((dats m 0 c).arrAt · cfg0.N) ⊢ (arrBufs spec0 c (fun b => WN m c (Proc.devRef .tc b)) : sProp 𝕄) := by
  rw [arrBufs0_eq, arrays0_eq, (dats m 0 c).arrAt_in 0 rfl, (dats m 0 c).arrAt_in 1 rfl, (dats m 0 c).arrAt_in 2 rfl,
    WN_v3, WN_of_ne m c main_arg0 (by decide), WN_of_ne m c main_v2 (by decide)]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- And back: the whole buffers at the exit contents split into the proof data's arrays. -/
theorem hsplitN (c : Dev nD) :
    (arrBufs spec0 c (fun b => WN m c (Proc.devRef .tc b)) : sProp 𝕄) ⊢ (dats m 0 c).arrays ((dats m 0 c).arrAt · cfg0.N) := by
  rw [arrBufs0_eq, arrays0_eq, (dats m 0 c).arrAt_in 0 rfl, (dats m 0 c).arrAt_in 1 rfl, (dats m 0 c).arrAt_in 2 rfl,
    WN_v3, WN_of_ne m c main_arg0 (by decide), WN_of_ne m c main_v2 (by decide)]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

/-- A buffer that bypasses the region holds at the exit what it held at the entry. -/
theorem hrest (c : Dev nD) : ∀ b ∈ restRefs sig spec0, WN m c (Proc.devRef .tc b) = V0 m c (Proc.devRef .tc b) := fun b hb =>
  WN_of_ne m c b fun e => (Finset.mem_sdiff.mp hb).2 (Finset.mem_image.mpr ⟨3, Finset.mem_univ _, e.symm⟩)

/-! ## The run -/

set_option backward.isDefEq.respectTransparency.types false in
/-- Every weakly fair execution of @main terminates; every window's array ends at what the proof data computes, every
    buffer that bypasses the region at the tail's result from the exit contents. The tail writes no array (`hkeep`). -/
theorem run_main (hkeep : ∀ ops ∈ (tailOps : List (List (HloOp τ sig (Elt F)))), ∀ op ∈ ops, ∀ w, Proc.devRef .tc (arrRef spec0 w) ∉ op.writes) :
    θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ restRefs sig (cfgs 0).spec, r.2.mem ((c.tc : Thread nD τ).loc b) = StableHlo.after (tailOps (F := F)).flatten (WN m c) (Proc.devRef .tc b)) :=
  Pipeline.SharedAround.θ_run_shared_around_track cfgs (dats m) (0 : Fin 1) defs₀ Variants.none cellOf_inj winFacts₀0 block_pos0 arr_whole0 stage_whole0 m ρ main
    (fun c => (body_obligation m c).loose) (fun _ _ => rfl) (V0 m) (WN m) tailOps sfx_sub sfx_fresh hkeep (hmain m Variants.none)
    (hsplit m) (hjoin m) (hsplitN m) (hrest m) (hin m) (hout m)

/-- The result buffer and the integer argument bypass the region. -/
theorem main_v50_rest : main_v50 ∈ restRefs sig spec0 := Pipeline.mem_restRefs_of main_v50 rfl (by decide)
theorem main_arg1_rest : main_arg1 ∈ restRefs sig spec0 := Pipeline.mem_restRefs_of main_arg1 rfl (by decide)

/-- The run read at the result and at the two arguments: the result is what the tail computes from the exit contents;
    the embeddings are an input array of the region; the labels bypass it and no host operation writes them (`hV0`,
    `hV1`: before the region; `htail1`: after it). -/
theorem run_value (hkeep : ∀ ops ∈ (tailOps : List (List (HloOp τ sig (Elt F)))), ∀ op ∈ ops, ∀ w, Proc.devRef .tc (arrRef spec0 w) ∉ op.writes)
    (hV0 : ∀ c, V m c main_arg0 = m ((c : Thread nD τ).loc main_arg0)) (hV1 : ∀ c, V m c main_arg1 = m ((c : Thread nD τ).loc main_arg1))
    (htail1 : ∀ W : Valuation τ sig (Elt F), StableHlo.after (tailOps (F := F)).flatten W (Proc.devRef .tc main_arg1) = W (Proc.devRef .tc main_arg1)) :
    θ_run defs (onTc (τ := τ) (main (F := F))) ⟨m, fun _ => 0, ρ⟩ (fun r => ∀ c : Dev nD,
      r.2.mem ((c.tc : Thread nD τ).loc main_v50) = StableHlo.after (tailOps (F := F)).flatten (WN m c) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v50 main_v50_rest,
      ((h c).1 0).trans (((dats m 0 c).arrAt_in 0 rfl _).trans ((A_eq m c 0).trans (hV0 c))),
      ((h c).2 main_arg1 main_arg1_rest).trans ((htail1 _).trans ((WN_of_ne m c main_arg1 (by decide)).trans (hV1 c)))⟩) (run_main m ρ hkeep)

end Cert.Kernel.Hand

end
-- ==== Proof.K.Host.lean ====
/-
  The host side of the kernel program as printed: what the four operations before the region leave in the buffers the
  region reads, and what the operations after the region leave untouched.

  Before the region the integer labels are converted to floats, a column of ones is made, and the two are joined into
  the augmented matrix `[1 | L]` (8192 rows, 17 columns: column 0 is one, columns 1 … 16 are the labels). The inputs
  themselves are not written. After the region every operation writes a buffer of its own: none of them is an array a
  window of the pipeline stands on, and none is the labels' buffer.
-/
import proofs.«129707_j15676630630501_1_alg».proof.Proof.K.Base
import Idealize.ShloMosaic.Lib.StableHlo.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

variable (m : (ℓ : Loc nD τ sig) → Buf (Elt F) ℓ) (c : Dev nD)

/-! ## The buffers when the region is entered -/

/-- The embeddings are an input: no operation before the region writes them. -/
theorem V_main_arg0 : V m c main_arg0 = m ((c : Thread nD τ).loc main_arg0) := by
  dsimp only [V, V0]
  simp only [hostOps0, List.flatten_cons, List.flatten_nil, List.append_nil]
  after_results

/-- Nor the integer labels. -/
theorem V_main_arg1 : V m c main_arg1 = m ((c : Thread nD τ).loc main_arg1) := by
  dsimp only [V, V0]
  simp only [hostOps0, List.flatten_cons, List.flatten_nil, List.append_nil]
  after_results

/-- The float labels are the integer labels converted. -/
theorem V_main_v0 : V m c main_v0 = sitofp (F := F) .f32 (m ((c : Thread nD τ).loc main_arg1)) := by
  dsimp only [V, V0]
  simp only [hostOps0, List.flatten_cons, List.flatten_nil, List.append_nil]
  after_results

/-- The augmented matrix is a column of ones joined on the left of the float labels. -/
theorem V_main_v2 : V m c main_v2
    = concatenate S8192x17 1
        [⟨S8192x1, broadcastInDim S8192x1 ![] bcast_S_S8192x1 (constant (F := F) S_ .f32 0x3F800000#32)⟩,
         ⟨S8192x16, sitofp (F := F) .f32 (m ((c : Thread nD τ).loc main_arg1))⟩]
        concatenates_S8192x1_S8192x16_S8192x17_d1 := by
  dsimp only [V, V0]
  simp only [hostOps0, List.flatten_cons, List.flatten_nil, List.append_nil]
  after_results

/-! ## What the operations after the region leave alone -/

/-- The buffers the region reads or writes and the labels' buffer: the two inputs, the augmented matrix, the output. -/
abbrev AroundRegion (r : Ref sig .tc) : Prop := r = main_arg0 ∨ r = main_arg1 ∨ r = main_v2 ∨ r = main_v3

/- Stretch by stretch, each operation after the region writes only its own result buffer, which is none of those. -/
theorem hostOps1_keeps {r : Ref sig .tc} (hr : AroundRegion r) :
    ∀ op ∈ (hostOps1 : List (HloOp τ sig (Elt F))), Proc.devRef .tc r ∉ op.writes := by
  intro op hop
  simp only [hostOps1, List.mem_cons, List.mem_nil_iff, or_false] at hop
  rcases hr with rfl | rfl | rfl | rfl <;> rcases hop with rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_1_keeps {r : Ref sig .tc} (hr : AroundRegion r) :
    ∀ op ∈ (hostOps1_1 : List (HloOp τ sig (Elt F))), Proc.devRef .tc r ∉ op.writes := by
  intro op hop
  simp only [hostOps1_1, List.mem_cons, List.mem_nil_iff, or_false] at hop
  rcases hr with rfl | rfl | rfl | rfl <;> rcases hop with rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_2_keeps {r : Ref sig .tc} (hr : AroundRegion r) :
    ∀ op ∈ (hostOps1_2 : List (HloOp τ sig (Elt F))), Proc.devRef .tc r ∉ op.writes := by
  intro op hop
  simp only [hostOps1_2, List.mem_cons, List.mem_nil_iff, or_false] at hop
  rcases hr with rfl | rfl | rfl | rfl <;> rcases hop with rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_3_keeps {r : Ref sig .tc} (hr : AroundRegion r) :
    ∀ op ∈ (hostOps1_3 : List (HloOp τ sig (Elt F))), Proc.devRef .tc r ∉ op.writes := by
  intro op hop
  simp only [hostOps1_3, List.mem_cons, List.mem_nil_iff, or_false] at hop
  rcases hr with rfl | rfl | rfl | rfl <;> rcases hop with rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_4_keeps {r : Ref sig .tc} (hr : AroundRegion r) :
    ∀ op ∈ (hostOps1_4 : List (HloOp τ sig (Elt F))), Proc.devRef .tc r ∉ op.writes := by
  intro op hop
  simp only [hostOps1_4, List.mem_cons, List.mem_nil_iff, or_false] at hop
  rcases hr with rfl | rfl | rfl | rfl <;> rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_5_keeps {r : Ref sig .tc} (hr : AroundRegion r) :
    ∀ op ∈ (hostOps1_5 : List (HloOp τ sig (Elt F))), Proc.devRef .tc r ∉ op.writes := by
  intro op hop
  simp only [hostOps1_5, List.mem_cons, List.mem_nil_iff, or_false] at hop
  rcases hr with rfl | rfl | rfl | rfl <;> rcases hop with rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_6_keeps {r : Ref sig .tc} (hr : AroundRegion r) :
    ∀ op ∈ (hostOps1_6 : List (HloOp τ sig (Elt F))), Proc.devRef .tc r ∉ op.writes := by
  intro op hop
  simp only [hostOps1_6, List.mem_cons, List.mem_nil_iff, or_false] at hop
  rcases hr with rfl | rfl | rfl | rfl <;> rcases hop with rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- No operation after the region writes any of them. -/
theorem tail_keeps_aroundRegion {r : Ref sig .tc} (hr : AroundRegion r) :
    ∀ ops ∈ (tailOps : List (List (HloOp τ sig (Elt F)))), ∀ op ∈ ops, Proc.devRef .tc r ∉ op.writes := by
  intro ops hops
  simp only [tailOps, List.mem_cons, List.mem_nil_iff, or_false] at hops
  rcases hops with rfl | rfl | rfl | rfl | rfl | rfl | rfl
  · exact hostOps1_keeps hr
  · exact hostOps1_1_keeps hr
  · exact hostOps1_2_keeps hr
  · exact hostOps1_3_keeps hr
  · exact hostOps1_4_keeps hr
  · exact hostOps1_5_keeps hr
  · exact hostOps1_6_keeps hr

/-- Every window of the pipeline stands on one of them. -/
theorem arrRef_aroundRegion (w : Fin 4) : AroundRegion (Pipeline.arrRef spec0 w) := by
  fin_cases w
  · exact Or.inl rfl
  · exact Or.inl rfl
  · exact Or.inr (Or.inr (Or.inl rfl))
  · exact Or.inr (Or.inr (Or.inr rfl))

/-- The operations after the region write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps_aroundRegion (arrRef_aroundRegion w) ops hops op hop

/-- Nor the integer labels: they are after the tail what they were before it. -/
theorem tail_keeps_arg1 (W : Valuation τ sig (Elt F)) :
    StableHlo.after (tailOps (F := F)).flatten W (Proc.devRef .tc main_arg1) = W (Proc.devRef .tc main_arg1) :=
  StableHlo.after_of_forall_not_mem _ W fun op hop => by
    obtain ⟨ops, hops, hop'⟩ := List.mem_flatten.mp hop
    exact tail_keeps_aroundRegion (Or.inr (Or.inl rfl)) ops hops op hop'

/-! ## The augmented matrix at an index -/

section AugRead
variable {α : Type}

/-- A one-column matrix joined on the left of a sixteen-column one, read in column 0: the one-column matrix. -/
theorem concat_left_col0 (ones : S8192x1.Idx → α) (lab : S8192x16.Idx → α) (n : Fin 8192) :
    concatenate S8192x17 1 [⟨S8192x1, ones⟩, ⟨S8192x16, lab⟩] concatenates_S8192x1_S8192x16_S8192x17_d1
      (ValueIdx.ix2 n (0 : Fin 17)) = ones (ValueIdx.ix2 n (0 : Fin 1)) := by
  refine concatenate_pair_apply_left (1 : Fin S8192x17.rank) ones lab _ _ rfl _ ?_
  intro b; fin_cases b <;> rfl

/-- Read in column k + 1: the sixteen-column matrix in column k. -/
theorem concat_left_col_succ (ones : S8192x1.Idx → α) (lab : S8192x16.Idx → α) (n : Fin 8192) (k : Fin 16) :
    concatenate S8192x17 1 [⟨S8192x1, ones⟩, ⟨S8192x16, lab⟩] concatenates_S8192x1_S8192x16_S8192x17_d1
      (ValueIdx.ix2 n (⟨k.val + 1, by omega⟩ : Fin 17)) = lab (ValueIdx.ix2 n k) := by
  refine concatenate_pair_apply_right (1 : Fin S8192x17.rank) ones lab _ _ rfl rfl _ ?_ ?_
  · intro b hb; fin_cases b
    · rfl
    · exact absurd rfl hb
  · rfl

end AugRead

end Cert.Kernel.Hand

end
-- ==== Proof.KI.Base.lean ====
/-
  What the frame and value proofs of the idealized kernel program share.

  @main is four host operations (the labels converted to floats, a column of ones, their concatenation `[1 | L]`), one
  pipelined region on an 8 × 8 grid, and a tail of host operations that reads the region's result. The region's body at
  grid point (i, j) reads row block i and row block j of the embeddings (two windows on ONE array) and row block j of
  `[1 | L]`, and adds into a scratch accumulator that it resets at j = 0 and copies to the output block i at j = 7.
  Here: the buffers' contents when the region is entered (`V`), @main reduced to the region continued by the tail
  (`hmain`), the tail's side facts, the windows' blocks (`iblk`) with the fact that every input's staging buffer holds
  its block at every point, the two branch conditions in closed form over the 64 points, where the output window is idle,
  and the names of the staging and scratch memrefs.
-/
import proofs.«129707_j15676630630501_1_alg».proof.Proof.Gen.KernelIdeal.Launch
import proofs.«129707_j15676630630501_1_alg».proof.Proof.Gen.KernelIdeal.Skeleton
import proofs.«129707_j15676630630501_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region CONTINUED BY the tail, the unscoped buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    (by simp only [List.Forall]; exact hostOps0_sub)
    (by simp only [List.Forall]; exact hostOps0_fresh) main_chain

/-- The tail touches unscoped TensorCore buffers only. -/
theorem sfx_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- It allocates nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (it is fetched only
    when the row block i changes; in between its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1 (row block j of the embeddings). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for input window 2 (row block j of `[1 | L]`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is copied out: the second grid coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is not copied out the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the output window is live. -/
theorem liveAt0_3 : ∀ t : Fin cfg0.N, cond0_1 (grid0.coords t) → cfg0.idle 3 (grid0.coords t) = false := by decide +kernel

/-! ## The staging and scratch memrefs -/

/-- One staging buffer of the output window, through which its contents are stated. -/
abbrev VO0_3 : View sig .tc .vmem S1024x17 .f32 := (Memref.whole cc0_stg3_0 : Memref sig .tc .vmem S1024x17 .f32).view
/-- Each window's current staging memref at point `t`, spelled as the pipeline passes it, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x17 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1024x17 .f32 := Memref.whole cc0_scratch0
abbrev VS0_0 : View sig .tc .vmem S1024x17 .f32 := scM0_0.view

/-- The core's scoped buffers that are no staging buffer are the scratch accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.RunA.lean ====
/-
  The kernel body at a grid point with j = 0: the accumulator, found at anything, is reset to zeros and then holds zeros
  plus this point's partial product; nothing is stored into the output block, which is handed back as found. What the
  stores leave in the accumulator is the list of pieces the symbolic run finds.
-/
import proofs.«129707_j15676630630501_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (reset, no copy-out): on whole staging memrefs holding the three input blocks `x0 x1 x2`, the output's buffer
    at `xi3` and the accumulator at anything, the body runs to the continuation holding the inputs and the output's
    buffer as they were and the accumulator with its pieces `LS0` written. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i)
    (x0 : Vec F S1024x128 .f32) (x1 : Vec F S1024x128 .f32) (x2 : Vec F S1024x17 .f32) :
    Σ' (L3 : List (View.Piece (Elt F) S1024x17 .f32)), { LS0 : List (View.Piece (Elt F) S1024x17 .f32) //
      ∀ (xi3 : Vec F S1024x17 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨[], ?_, fun xi3 E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.RunB.lean ====
/-
  The kernel body at a grid point with 0 < j < 7: the accumulator, found at what the point before left, ends at that plus
  this point's partial product; nothing is stored into the output block.
-/
import proofs.«129707_j15676630630501_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (no reset, no copy-out): as case A, the accumulator found at `xs0`. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i)
    (x0 : Vec F S1024x128 .f32) (x1 : Vec F S1024x128 .f32) (x2 : Vec F S1024x17 .f32) (xs0 : Vec F S1024x17 .f32) :
    Σ' (L3 : List (View.Piece (Elt F) S1024x17 .f32)), { LS0 : List (View.Piece (Elt F) S1024x17 .f32) //
      ∀ (xi3 : Vec F S1024x17 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨[], ?_, fun xi3 E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.RunC.lean ====
/-
  The kernel body at a grid point with j = 7: the accumulator, found at what the point before left, ends at that plus
  this point's partial product, and the output block is stored whole with the accumulator's final contents.
-/
import proofs.«129707_j15676630630501_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (no reset, copy-out): the output's buffer found at anything ends with its pieces `L3` written. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i)
    (x0 : Vec F S1024x128 .f32) (x1 : Vec F S1024x128 .f32) (x2 : Vec F S1024x17 .f32) (xs0 : Vec F S1024x17 .f32) :
    Σ' (L3 : List (View.Piece (Elt F) S1024x17 .f32)), { LS0 : List (View.Piece (Elt F) S1024x17 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sim_reduce_kernel i arg2 harg2 arg3 harg3 arg4 harg4 arg5 harg5 arg6 harg6) K } := by
  refine ⟨?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Frame.lean ====
/-
  What the accumulator and the output block hold after each grid point, the proof data of the one pipeline, and the
  body obligation.

  The 64 grid points are walked in row-major order, t = 8·i + j. At j = 0 the body clears the accumulator and adds this
  point's partial product (case A); at 0 < j < 7 it adds onto what the point before left (case B); at j = 7 it adds and
  copies the accumulator into the output block (case C). `outsAt0` states, by recursion on the point, the pair
  (output block, accumulator) after each point: each case's pieces read back, an accumulator carried from the point
  before in cases B and C. The invariant before point t is the accumulator at what point t − 1 left (before the first
  point: at anything). The embeddings' array stands behind two input windows, so the proof data holds it at the two
  halves of the full share; the other arrays are held whole.
-/
import proofs.«129707_j15676630630501_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults (the window is idle there). -/
def out0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) : Vec F S1024x17 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) (y : S1024x17.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x17.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) : Vec F S1024x17 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block either. -/
def out0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) : Vec F S1024x17 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) (y : S1024x17.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x17.size (by sl_kernel_rfl) y

/-- What case B leaves in the accumulator, found at `xs0`. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) : Vec F S1024x17 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store into the output block covers it. -/
theorem cover0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) (y : S1024x17.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x17.size (by sl_kernel_rfl) y

/-- What case C leaves in the output block. -/
def out0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) : Vec F S1024x17 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) (y : S1024x17.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x17.size (by sl_kernel_rfl) y

/-- What case C leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) : Vec F S1024x17 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the accumulator hold after each point -/

/-- The pair (output block's buffer, accumulator) after the body at position `n`: the case the point is in, run at the
    point's memrefs and input blocks, the accumulator of cases B and C found at what position `n - 1` left. -/
def outsAt0 (c : Dev nD) : (n : ℕ) → n < cfg0.N → Vec F S1024x17 .f32 × Vec F S1024x17 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at a point with j = 0. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point with 0 < j < 7: over what the point before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with j = 7: over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the accumulator at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the region finds them; after the body each input's buffer at its block, the output's at `outsAt0`'s
    first component; the invariant `PhiS`; nothing owed; the embeddings' array at the left half share for window 0 and
    the right half for window 1, the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' memrefs hold their blocks; the closed forms say which case the point is in; the
    invariant hands the body the accumulator at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

end Cert.KernelIdeal.Hand

end
-- ==== Proof.KI.Run.lean ====
/-
  The run of the idealized kernel program, from the body obligation to what memory holds at the end.

  When the region is entered the three distinct arrays behind its four windows are held whole. The embeddings' array is
  split into the two halves of the full share, one for each of the two windows that read it; the other two arrays pass
  whole. At the region's exit the inputs hold what they held (an input is never written), the halves are put together
  again, and the output array holds what the eight write-backs left. The tail then runs within all the unscoped buffers.
  Every weakly fair execution therefore terminates with every window's array at what the proof data computes and every
  other unscoped buffer at the tail's result from the exit contents; read at the two arguments this is the frame claim,
  read at the result buffer it is the value the tail computes from the output array.
-/
import proofs.«129707_j15676630630501_1_alg».proof.Proof.KI.Frame
import proofs.«129707_j15676630630501_1_alg».proof.Proof.LibSharedAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs unscopedRest restRefs arrRef)

variable (m : (ℓ : Loc nD τ sig) → Buf (Elt F) ℓ) (ρ : Dev nD → PrngReg)

/-! ## The contents at the region's exit -/

open Classical in
/-- The core's buffer contents when the region is left: the output array at what the write-backs left, every other
    buffer as when the region was entered. -/
def WN (c : Dev nD) : Valuation τ sig (Elt F) :=
  Function.update (V0 m c) (Proc.devRef .tc main_v3) ((dats m 0 c).arrAt 3 cfg0.N)

theorem WN_v3 (c : Dev nD) : WN m c (Proc.devRef .tc main_v3) = (dats m 0 c).arrAt 3 cfg0.N := by
  unfold WN; exact Function.update_self _ _ _

theorem WN_of_ne (c : Dev nD) (b : Ref sig .tc) (hb : b ≠ main_v3) : WN m c (Proc.devRef .tc b) = V0 m c (Proc.devRef .tc b) := by
  unfold WN; exact Function.update_of_ne (fun e => hb (Proc.devRef_injective _ e)) _ _

/-! ## The arrays, one by one -/

/-- The distinct buffers behind the windows' arrays: the embeddings, the augmented labels, the output. -/
theorem arrBufs0_eq (c : Dev nD) (X : (b : Ref sig .tc) → Buf (Elt F) ((c : Thread nD τ).loc b)) :
    (arrBufs spec0 c X : sProp 𝕄)
      = iprop((((c : Thread nD τ).loc main_arg0) ↦{fullShare} X main_arg0) ∗ (((c : Thread nD τ).loc main_v2) ↦{fullShare} X main_v2)
          ∗ (((c : Thread nD τ).loc main_v3) ↦{fullShare} X main_v3)) := by
  unfold arrBufs
  exact bigSep_eq_bigSepL_of_eq [main_arg0, main_v2, main_v3] (by decide) (by decide) _

/-- The proof data's arrays: the embeddings twice, at the two halves of the full share; the others whole. -/
theorem arrays0_eq (c : Dev nD) (X : (w : Fin cfg0.W) → Buf (Elt F) ((cfg0.win w).arr.view.loc (c : Thread nD τ))) :
    ((dats m 0 c).arrays X : sProp 𝕄)
      = iprop((((c : Thread nD τ).loc main_arg0) ↦{fullShare.left} X 0) ∗ (((c : Thread nD τ).loc main_arg0) ↦{fullShare.right} X 1)
          ∗ (((c : Thread nD τ).loc main_v2) ↦{fullShare} X 2) ∗ (((c : Thread nD τ).loc main_v3) ↦{fullShare} X 3)) := by
  unfold Dat.arrays
  rw [bigSep_W0, (arr_whole0 0).set_eq_univ, (arr_whole0 2).set_eq_univ, (arr_whole0 3).set_eq_univ]
  rfl

/-- At the entry: the whole buffers make the proof data's arrays, the embeddings' array split along the share. -/
theorem hsplit (c : Dev nD) :
    (arrBufs spec0 c (fun b => V0 m c (Proc.devRef .tc b)) : sProp 𝕄) ⊢ (dats m 0 c).arrays ((dats m 0 c).arrAt · 0) := by
  rw [arrBufs0_eq, arrays0_eq]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

/-- At the exit: the two halves of the embeddings' array make it whole again; the output array is at its final contents. -/
theorem hjoin (c : Dev nD) :
    (dats m 0 c).arrays ((dats m 0 c).arrAt · cfg0.N) ⊢ (arrBufs spec0 c (fun b => WN m c (Proc.devRef .tc b)) : sProp 𝕄) := by
  rw [arrBufs0_eq, arrays0_eq, (dats m 0 c).arrAt_in 0 rfl, (dats m 0 c).arrAt_in 1 rfl, (dats m 0 c).arrAt_in 2 rfl,
    WN_v3, WN_of_ne m c main_arg0 (by decide), WN_of_ne m c main_v2 (by decide)]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- And back: the whole buffers at the exit contents split into the proof data's arrays. -/
theorem hsplitN (c : Dev nD) :
    (arrBufs spec0 c (fun b => WN m c (Proc.devRef .tc b)) : sProp 𝕄) ⊢ (dats m 0 c).arrays ((dats m 0 c).arrAt · cfg0.N) := by
  rw [arrBufs0_eq, arrays0_eq, (dats m 0 c).arrAt_in 0 rfl, (dats m 0 c).arrAt_in 1 rfl, (dats m 0 c).arrAt_in 2 rfl,
    WN_v3, WN_of_ne m c main_arg0 (by decide), WN_of_ne m c main_v2 (by decide)]
  iintro ⟨H0, H2, H3⟩
  ihave H0' := (pointsTo_share (PosShare.mem_left_op_right fullShare)).1 $$ H0
  icases H0' with ⟨Hl, Hr⟩
  isplitl [Hl]; · iexact Hl
  isplitl [Hr]; · iexact Hr
  isplitl [H2]; · iexact H2
  iexact H3

/-- A buffer that bypasses the region holds at the exit what it held at the entry. -/
theorem hrest (c : Dev nD) : ∀ b ∈ restRefs sig spec0, WN m c (Proc.devRef .tc b) = V0 m c (Proc.devRef .tc b) := fun b hb =>
  WN_of_ne m c b fun e => (Finset.mem_sdiff.mp hb).2 (Finset.mem_image.mpr ⟨3, Finset.mem_univ _, e.symm⟩)

/-! ## The run -/

set_option backward.isDefEq.respectTransparency.types false in
/-- Every weakly fair execution of @main terminates; every window's array ends at what the proof data computes, every
    buffer that bypasses the region at the tail's result from the exit contents. The tail writes no array (`hkeep`). -/
theorem run_main (hkeep : ∀ ops ∈ (tailOps : List (List (HloOp τ sig (Elt F)))), ∀ op ∈ ops, ∀ w, Proc.devRef .tc (arrRef spec0 w) ∉ op.writes) :
    θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ ∀ b ∈ restRefs sig (cfgs 0).spec, r.2.mem ((c.tc : Thread nD τ).loc b) = StableHlo.after (tailOps (F := F)).flatten (WN m c) (Proc.devRef .tc b)) :=
  Pipeline.SharedAround.θ_run_shared_around_track cfgs (dats m) (0 : Fin 1) defs₀ Variants.none cellOf_inj winFacts₀0 block_pos0 arr_whole0 stage_whole0 m ρ main
    (fun c => (body_obligation m c).loose) (fun _ _ => rfl) (V0 m) (WN m) tailOps sfx_sub sfx_fresh hkeep (hmain m Variants.none)
    (hsplit m) (hjoin m) (hsplitN m) (hrest m) (hin m) (hout m)

/-- The result buffer and the integer argument bypass the region. -/
theorem main_v50_rest : main_v50 ∈ restRefs sig spec0 := Pipeline.mem_restRefs_of main_v50 rfl (by decide)
theorem main_arg1_rest : main_arg1 ∈ restRefs sig spec0 := Pipeline.mem_restRefs_of main_arg1 rfl (by decide)

/-- The run read at the result and at the two arguments: the result is what the tail computes from the exit contents;
    the embeddings are an input array of the region; the labels bypass it and no host operation writes them (`hV0`,
    `hV1`: before the region; `htail1`: after it). -/
theorem run_value (hkeep : ∀ ops ∈ (tailOps : List (List (HloOp τ sig (Elt F)))), ∀ op ∈ ops, ∀ w, Proc.devRef .tc (arrRef spec0 w) ∉ op.writes)
    (hV0 : ∀ c, V m c main_arg0 = m ((c : Thread nD τ).loc main_arg0)) (hV1 : ∀ c, V m c main_arg1 = m ((c : Thread nD τ).loc main_arg1))
    (htail1 : ∀ W : Valuation τ sig (Elt F), StableHlo.after (tailOps (F := F)).flatten W (Proc.devRef .tc main_arg1) = W (Proc.devRef .tc main_arg1)) :
    θ_run defs (onTc (τ := τ) (main (F := F))) ⟨m, fun _ => 0, ρ⟩ (fun r => ∀ c : Dev nD,
      r.2.mem ((c.tc : Thread nD τ).loc main_v50) = StableHlo.after (tailOps (F := F)).flatten (WN m c) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v50 main_v50_rest,
      ((h c).1 0).trans (((dats m 0 c).arrAt_in 0 rfl _).trans ((A_eq m c 0).trans (hV0 c))),
      ((h c).2 main_arg1 main_arg1_rest).trans ((htail1 _).trans ((WN_of_ne m c main_arg1 (by decide)).trans (hV1 c)))⟩) (run_main m ρ hkeep)

end Cert.KernelIdeal.Hand

end
-- ==== Proof.KI.Pieces.lean ====
/-
  The pieces the symbolic run found, read back as payloads, for any float family.

  Every store of the body writes the whole 1024 × 17 buffer through the rectangle at zero offsets, and every load reads
  a whole buffer through it. So the accumulator after the body is the payload of the LAST store into it, the loads of
  the three input buffers read their contents, and a load of the accumulator after a store in the same run reads that
  store's payload. At j = 0 the update's addend is the zero block the reset has just stored; at j > 0 it is what the
  accumulator held on entry; at j = 7 the output block is stored with the accumulator's final contents.
-/
import proofs.«129707_j15676630630501_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The pieces are payloads (any float family) -/

/-- The offsets of every load and store of the body are zero. -/
private theorem offsets_zero : (![0, 0] : Fin 2 → Nat) = fun _ => 0 := funext fun a => by fin_cases a <;> rfl

/-- j = 0: the accumulator ends at the update over the zero block the reset stored (the update's addend is a load of
    the accumulator after the reset's store, which reads the reset's payload). -/
theorem sout0_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : cond0_0 i) (hc1 : ¬cond0_1 i) (x0 : Vec F S1024x128 .f32) (x1 : Vec F S1024x128 .f32) (x2 : Vec F S1024x17 .f32) :
    sout0_A_0 c i arg2 harg2 arg3 harg3 arg4 harg4 arg5 harg5 arg6 harg6 hc0 hc1 x0 x1 x2 = k0_pay2 i x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x17) offsets_zero, View.readCov_unit_zero (S := S1024x17) _ offsets_zero]
  simp only [View.readAt_eq_ld, harg2.read_unread, harg3.read_unread, harg4.read_unread,
    View.ld_unit_zero (S := S1024x128) offsets_zero, View.ld_unit_zero (S := S1024x17) offsets_zero]

/-- 0 < j < 7: the accumulator ends at the update over what it held on entry. -/
theorem sout0_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : ¬cond0_1 i) (x0 : Vec F S1024x128 .f32) (x1 : Vec F S1024x128 .f32) (x2 : Vec F S1024x17 .f32) (xs0 : Vec F S1024x17 .f32) :
    sout0_B_0 c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1024x17) offsets_zero]
  simp only [View.readAt_eq_ld, harg2.read_unread, harg3.read_unread, harg4.read_unread, harg6.read_unread,
    View.ld_unit_zero (S := S1024x128) offsets_zero, View.ld_unit_zero (S := S1024x17) offsets_zero]

/-- j = 7: the accumulator ends at the update over what it held on entry, as at 0 < j < 7. -/
theorem sout0_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) :
    sout0_C_0 c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1024x17) offsets_zero]
  simp only [View.readAt_eq_ld, harg2.read_unread, harg3.read_unread, harg4.read_unread, harg6.read_unread,
    View.ld_unit_zero (S := S1024x128) offsets_zero, View.ld_unit_zero (S := S1024x17) offsets_zero]

/-- j = 7: the output block is stored with a load of the accumulator after the update's store: the same payload. -/
theorem out0_C_3_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x17 .f32) (harg4 : arg4.IsWhole) (arg5 : Memref sig .tc .vmem S1024x17 .f32) (harg5 : arg5.IsWhole) (arg6 : Memref sig .tc .vmem S1024x17 .f32) (harg6 : arg6.IsWhole) (hc0 : ¬cond0_0 i) (hc1 : cond0_1 i) (x0 : Vec F S1024x128 .f32) (x1 : Vec F S1024x128 .f32) (x2 : Vec F S1024x17 .f32) (xs0 : Vec F S1024x17 .f32) :
    out0_C_3 c i arg2 harg2 arg3 harg3 arg4 harg4 arg5 harg5 arg6 harg6 hc0 hc1 x0 x1 x2 xs0 = k0_pay2 i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1024x17) offsets_zero, View.readCov_unit_zero (S := S1024x17) _ offsets_zero]
  simp only [View.readAt_eq_ld, harg2.read_unread, harg3.read_unread, harg4.read_unread, harg6.read_unread,
    View.ld_unit_zero (S := S1024x128) offsets_zero, View.ld_unit_zero (S := S1024x17) offsets_zero]

end Cert.KernelIdeal.Hand

end
-- ==== Proof.KI.Blocks.lean ====
/-
  The grid point's coordinates and the input windows' blocks at an index.

  The 64 grid points are walked in row-major order over the 8 × 8 grid: point t is (t / 8, t % 8). Window 0 reads row
  block t / 8 of the embeddings, windows 1 and 2 read row block t % 8 of the embeddings and of `[1 | L]`; each block is
  1024 rows and all the columns, so the element (p, k) of a block with row-block index b sits in its array at
  (b · 1024 + p, k).
-/
import proofs.«129707_j15676630630501_1_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-! ### The grid point's coordinates and the windows' blocks at an index -/

/-- Point t's first coordinate is t / 8. -/
theorem coords0 (t : Fin cfg0.N) : (grid0.coords t 0).val = t.val / 8 :=
  (by decide +kernel : ∀ t : Fin grid0.N, (grid0.coords t 0).val = t.val / 8) t
/-- Point t's second coordinate is t % 8. -/
theorem coords1 (t : Fin cfg0.N) : (grid0.coords t 1).val = t.val % 8 :=
  (by decide +kernel : ∀ t : Fin grid0.N, (grid0.coords t 1).val = t.val % 8) t

/-- Window 0's block index at point t is (t / 8, 0). -/
private theorem index0_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- Window 1's block index at point t is (t % 8, 0). -/
private theorem index0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- Window 2's block index at point t is (t % 8, 0). -/
private theorem index0_2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)

/-- Row p, column k of window 0's block at point t is row (t / 8) · 1024 + p, column k of the embeddings. -/
theorem iblk0_apply (c : Dev nD) (t : Fin cfg0.N) (p : Fin 1024) (k : Fin 128) (h : t.val / 8 * 1024 + p.val < 8192) :
    (iblk m c 0 t : S1024x128.Idx → Elt F .f32) (ix2 p k) = (V m c main_arg0 : S8192x128.Idx → Elt F .f32) (ix2 ⟨t.val / 8 * 1024 + p.val, h⟩ k) := by
  have hi := index0_0 t
  unfold iblk
  rw [View.read_apply]
  show V m c main_arg0 _ = V m c main_arg0 _
  congr 1
  funext a
  apply Fin.ext
  match a with
  | ⟨0, _⟩ => show win0_0.index t 0 * 1024 + 1 * p.val = t.val / 8 * 1024 + p.val; rw [hi.1]; omega
  | ⟨1, _⟩ => show win0_0.index t 1 * 128 + 1 * k.val = k.val; rw [hi.2]; omega

/-- Row q, column k of window 1's block at point t is row (t % 8) · 1024 + q, column k of the embeddings. -/
theorem iblk1_apply (c : Dev nD) (t : Fin cfg0.N) (q : Fin 1024) (k : Fin 128) (h : t.val % 8 * 1024 + q.val < 8192) :
    (iblk m c 1 t : S1024x128.Idx → Elt F .f32) (ix2 q k) = (V m c main_arg0 : S8192x128.Idx → Elt F .f32) (ix2 ⟨t.val % 8 * 1024 + q.val, h⟩ k) := by
  have hi := index0_1 t
  unfold iblk
  rw [View.read_apply]
  show V m c main_arg0 _ = V m c main_arg0 _
  congr 1
  funext a
  apply Fin.ext
  match a with
  | ⟨0, _⟩ => show win0_1.index t 0 * 1024 + 1 * q.val = t.val % 8 * 1024 + q.val; rw [hi.1]; omega
  | ⟨1, _⟩ => show win0_1.index t 1 * 128 + 1 * k.val = k.val; rw [hi.2]; omega

/-- Row q, column k of window 2's block at point t is row (t % 8) · 1024 + q, column k of `[1 | L]`. -/
theorem iblk2_apply (c : Dev nD) (t : Fin cfg0.N) (q : Fin 1024) (k : Fin 17) (h : t.val % 8 * 1024 + q.val < 8192) :
    (iblk m c 2 t : S1024x17.Idx → Elt F .f32) (ix2 q k) = (V m c main_v2 : S8192x17.Idx → Elt F .f32) (ix2 ⟨t.val % 8 * 1024 + q.val, h⟩ k) := by
  have hi := index0_2 t
  unfold iblk
  rw [View.read_apply]
  show V m c main_v2 _ = V m c main_v2 _
  congr 1
  funext a
  apply Fin.ext
  match a with
  | ⟨0, _⟩ => show win0_2.index t 0 * 1024 + 1 * q.val = t.val % 8 * 1024 + q.val; rw [hi.1]; omega
  | ⟨1, _⟩ => show win0_2.index t 1 * 17 + 1 * k.val = k.val; rw [hi.2]; omega

end Cert.KernelIdeal.Hand

end
-- ==== Proof.KI.Pay.lean ====
/-
  The two stored values of the kernel body, read at one element.

  The clearing store writes the zero matrix. The accumulating store at grid point (i0, i1) writes, at row p and column c,
  the accumulator there plus the sum over the 1024 columns q of the block of the weight of q in row p times the augmented
  label matrix at (q, c); the weight is zero where the global row i0 · 1024 + p equals the global column i1 · 1024 + q, and
  otherwise the exponential of twice the inner product of row p of the first embedding block with row q of the second.
  On the extended reals the narrowing format changes are the identity, a product into the zero matrix is the plain sum
  over the contraction coordinate, a transpose swaps the two coordinates, and the 32-bit integer arithmetic of the mask
  stays below 8192, so it never wraps.
-/
import proofs.«129707_j15676630630501_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

/-! ## The two float constants -/

/-- The pattern of 2.0 denotes the real 2. -/
theorem ofBits_two : Ideal.ofBits .f32 0x40000000#32 = ((2 : ℝ) : EReal) := by
  simp [Ideal.ofBits, Ideal.ieee, -EReal.coe_mul]; norm_num

/-! ## The mask's integer arithmetic -/

/-- An equality comparison of two words answers 1 exactly when they are equal. -/
theorem cmpi_eq_one_iff {w : ℕ} (x y : BitVec w) : IntOp.cmpi .eq x y = 1#1 ↔ x = y := by
  show BitVec.ofBool (x == y) = 1#1 ↔ x = y
  by_cases h : x = y
  · simp [h]
  · have hb : (x == y) = false := beq_eq_false_iff_ne.2 h
    rw [hb]
    exact ⟨fun hc => absurd hc (by decide), fun hxy => absurd hxy h⟩

/-- Global row against global column: with block numbers below 8 and offsets below 1024 nothing wraps at 32 bits, so the
    comparison of the two words is the comparison of the two naturals. -/
theorem diag_word (a b p q : ℕ) (ha : a < 8) (hb : b < 8) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q)) = 1#1
      ↔ a * 1024 + p = b * 1024 + q := by
  rw [cmpi_eq_one_iff]
  unfold IntOp.addi Scalar.muli IntOp.muli
  rw [← BitVec.toNat_inj]
  simp only [BitVec.toNat_add, BitVec.toNat_mul, BitVec.toNat_ofNat, Nat.reducePow, Nat.reduceMod]
  omega

/-- The mask at (p, q) of the block at grid point i. -/
theorem mask_apply (i : grid0.Coords) (p q : Fin 1024) :
    cmpi .eq (addi (broadcast S1024x1024 (Scalar.muli (BitVec.ofNat 32 (i 0).val) 1024#32))
          (iota .tc S1024x1024 32 [0] iota_S1024x1024_d0_w32))
        (addi (broadcast S1024x1024 (Scalar.muli (BitVec.ofNat 32 (i 1).val) 1024#32))
          (iota .tc S1024x1024 32 [1] iota_S1024x1024_d1_w32)) (ix2 p q) = 1#1
      ↔ (i 0).val * 1024 + p.val = (i 1).val * 1024 + q.val := by
  have h0 : iota .tc S1024x1024 32 [0] iota_S1024x1024_d0_w32 (ix2 p q) = BitVec.ofNat 32 p.val :=
    iota_single_apply .tc S1024x1024 32 0 iota_S1024x1024_d0_w32 (ix2 p q)
  have h1 : iota .tc S1024x1024 32 [1] iota_S1024x1024_d1_w32 (ix2 p q) = BitVec.ofNat 32 q.val :=
    iota_single_apply .tc S1024x1024 32 1 iota_S1024x1024_d1_w32 (ix2 p q)
  show IntOp.cmpi .eq (IntOp.addi (Scalar.muli (BitVec.ofNat 32 (i 0).val) 1024#32)
        (iota .tc S1024x1024 32 [0] iota_S1024x1024_d0_w32 (ix2 p q)))
      (IntOp.addi (Scalar.muli (BitVec.ofNat 32 (i 1).val) 1024#32)
        (iota .tc S1024x1024 32 [1] iota_S1024x1024_d1_w32 (ix2 p q))) = 1#1 ↔ _
  rw [h0, h1]
  exact diag_word _ _ _ _ (i 0).isLt (i 1).isLt p.isLt q.isLt

/-! ## The first product: rows of the first block against rows of the second -/

/-- The left operand's row is the output's row. -/
theorem sim_lhs_axis0 (j : S1024x1024.Idx) (k : dot_S1024x128_S128x1024_S1024x1024_1_0_0_1_n_n.contr.Idx) :
    (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch from List.not_mem_nil),
    dif_pos (show (0 : Fin S1024x128.rank) ∈ dot_S1024x128_S128x1024_S1024x1024_1_0_0_1_n_n.lhsNonContracting from List.mem_singleton.2 rfl)]
  rfl

/-- The left operand's column is the contraction coordinate. -/
theorem sim_lhs_axis1 (j : S1024x1024.Idx) (k : dot_S1024x128_S128x1024_S1024x1024_1_0_0_1_n_n.contr.Idx) :
    (dot_S1024x128_S128x1024_S1024x1024_1_0_0_1_n_n.lhsIdx j k 1).val = (k ⟨0, Nat.one_pos⟩).val :=
  dot_S1024x128_S128x1024_S1024x1024_1_0_0_1_n_n.lhsIdx_val_of_single rfl j k

/-- The right operand's row is the contraction coordinate. -/
theorem sim_rhs_axis0 (j : S1024x1024.Idx) (k : dot_S1024x128_S128x1024_S1024x1024_1_0_0_1_n_n.contr.Idx) :
    (dot_S1024x128_S128x1024_S1024x1024_1_0_0_1_n_n.rhsIdx j k 0).val = (k ⟨0, Nat.one_pos⟩).val :=
  dot_S1024x128_S128x1024_S1024x1024_1_0_0_1_n_n.rhsIdx_val_of_single rfl j k

/-- The right operand's column is the output's column. -/
theorem sim_rhs_axis1 (j : S1024x1024.Idx) (k : dot_S1024x128_S128x1024_S1024x1024_1_0_0_1_n_n.contr.Idx) :
    (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch from List.not_mem_nil),
    dif_pos (show (1 : Fin S128x1024.rank) ∈ dot_S1024x128_S128x1024_S1024x1024_1_0_0_1_n_n.rhsNonContracting from List.mem_singleton.2 rfl)]
  rfl

/-- A 1024 × 128 matrix times a 128 × 1024 matrix into the zero matrix, at (p, q). -/
theorem sim_matmul_apply {φ₁ φ₂ : FTy} (l : FVec Ideal S1024x128 φ₁) (r : FVec Ideal S128x1024 φ₂) (p q : Fin 1024) :
    matmul dot_S1024x128_S128x1024_S1024x1024_1_0_0_1_n_n none l r (constant (F := Ideal) S1024x1024 .f32 0x00000000#32) (ix2 p q)
      = ∑ k : Fin 128, l (ix2 p k) * r (ix2 k q) := by
  refine (Ideal.matmul_constant_zero_apply dot_S1024x128_S128x1024_S1024x1024_1_0_0_1_n_n none l r (ix2 p q)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun a => Fin.ext (by
      match a with
      | ⟨0, _⟩ => exact sim_lhs_axis0 _ _
      | ⟨1, _⟩ => exact (sim_lhs_axis1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun a => Fin.ext (by
      match a with
      | ⟨0, _⟩ => exact (sim_rhs_axis0 _ _).trans hk
      | ⟨1, _⟩ => exact sim_rhs_axis1 _ _)
  rw [el, er]

/-- The similarity block at (p, q): the inner product of row p of the first block and row q of the second. -/
theorem sim_apply (v3 v5 : Vec Ideal S1024x128 .f32) (p q : Fin 1024) :
    matmul dot_S1024x128_S128x1024_S1024x1024_1_0_0_1_n_n none (truncf .bf16 v3 bitsLt_bf16_f32)
        (transpose S128x1024 [1, 0] (truncf .bf16 v5 bitsLt_bf16_f32) transposes_S1024x128_p1_0_S128x1024)
        (constant (F := Ideal) S1024x1024 .f32 0x00000000#32) (ix2 p q)
      = ∑ k : Fin 128, v3 (ix2 p k) * v5 (ix2 q k) := by
  refine (sim_matmul_apply _ _ p q).trans ?_
  refine Finset.sum_congr rfl fun k _ => ?_
  refine congrArg (v3 (ix2 p k) * ·) ?_
  exact transpose_ix2_apply _ transposes_S1024x128_p1_0_S128x1024 k q

/-! ## The second product: the weights against the augmented labels -/

/-- The left operand's row is the output's row. -/
theorem acc_lhs_axis0 (j : S1024x17.Idx) (k : dot_S1024x1024_S1024x17_S1024x17_1_0_0_1_n_n.contr.Idx) :
    (dot_S1024x1024_S1024x17_S1024x17_1_0_0_1_n_n.lhsIdx j k 0).val = (j 0).val := by
  unfold DotDims.lhsIdx
  rw [dif_neg (show ¬(0 : Fin S1024x1024.rank) ∈ dot_S1024x1024_S1024x17_S1024x17_1_0_0_1_n_n.lhsBatch from List.not_mem_nil),
    dif_pos (show (0 : Fin S1024x1024.rank) ∈ dot_S1024x1024_S1024x17_S1024x17_1_0_0_1_n_n.lhsNonContracting from List.mem_singleton.2 rfl)]
  rfl

/-- The left operand's column is the contraction coordinate. -/
theorem acc_lhs_axis1 (j : S1024x17.Idx) (k : dot_S1024x1024_S1024x17_S1024x17_1_0_0_1_n_n.contr.Idx) :
    (dot_S1024x1024_S1024x17_S1024x17_1_0_0_1_n_n.lhsIdx j k 1).val = (k ⟨0, Nat.one_pos⟩).val :=
  dot_S1024x1024_S1024x17_S1024x17_1_0_0_1_n_n.lhsIdx_val_of_single rfl j k

/-- The right operand's row is the contraction coordinate. -/
theorem acc_rhs_axis0 (j : S1024x17.Idx) (k : dot_S1024x1024_S1024x17_S1024x17_1_0_0_1_n_n.contr.Idx) :
    (dot_S1024x1024_S1024x17_S1024x17_1_0_0_1_n_n.rhsIdx j k 0).val = (k ⟨0, Nat.one_pos⟩).val :=
  dot_S1024x1024_S1024x17_S1024x17_1_0_0_1_n_n.rhsIdx_val_of_single rfl j k

/-- The right operand's column is the output's column. -/
theorem acc_rhs_axis1 (j : S1024x17.Idx) (k : dot_S1024x1024_S1024x17_S1024x17_1_0_0_1_n_n.contr.Idx) :
    (dot_S1024x1024_S1024x17_S1024x17_1_0_0_1_n_n.rhsIdx j k 1).val = (j 1).val := by
  unfold DotDims.rhsIdx
  rw [dif_neg (show ¬(1 : Fin S1024x17.rank) ∈ dot_S1024x1024_S1024x17_S1024x17_1_0_0_1_n_n.rhsBatch from List.not_mem_nil),
    dif_pos (show (1 : Fin S1024x17.rank) ∈ dot_S1024x1024_S1024x17_S1024x17_1_0_0_1_n_n.rhsNonContracting from List.mem_singleton.2 rfl)]
  rfl

/-- A 1024 × 1024 matrix times a 1024 × 17 matrix into the zero matrix, at (p, c). -/
theorem acc_matmul_apply {φ₁ φ₂ : FTy} (l : FVec Ideal S1024x1024 φ₁) (r : FVec Ideal S1024x17 φ₂) (p : Fin 1024) (c : Fin 17) :
    matmul dot_S1024x1024_S1024x17_S1024x17_1_0_0_1_n_n none l r (constant (F := Ideal) S1024x17 .f32 0x00000000#32) (ix2 p c)
      = ∑ q : Fin 1024, l (ix2 p q) * r (ix2 q c) := by
  refine (Ideal.matmul_constant_zero_apply dot_S1024x1024_S1024x17_S1024x17_1_0_0_1_n_n none l r (ix2 p c)).trans ?_
  rw [← Equiv.sum_comp (contrEquiv1 dot_S1024x1024_S1024x17_S1024x17_1_0_0_1_n_n 1024 rfl rfl).symm]
  refine Finset.sum_congr rfl fun k _ => ?_
  have hk := contrEquiv1_symm_val dot_S1024x1024_S1024x17_S1024x17_1_0_0_1_n_n 1024 rfl rfl k
  have el : dot_S1024x1024_S1024x17_S1024x17_1_0_0_1_n_n.lhsIdx (ix2 p c)
      ((contrEquiv1 dot_S1024x1024_S1024x17_S1024x17_1_0_0_1_n_n 1024 rfl rfl).symm k) = ix2 p k :=
    funext fun a => Fin.ext (by
      match a with
      | ⟨0, _⟩ => exact acc_lhs_axis0 _ _
      | ⟨1, _⟩ => exact (acc_lhs_axis1 _ _).trans hk)
  have er : dot_S1024x1024_S1024x17_S1024x17_1_0_0_1_n_n.rhsIdx (ix2 p c)
      ((contrEquiv1 dot_S1024x1024_S1024x17_S1024x17_1_0_0_1_n_n 1024 rfl rfl).symm k) = ix2 k c :=
    funext fun a => Fin.ext (by
      match a with
      | ⟨0, _⟩ => exact (acc_rhs_axis0 _ _).trans hk
      | ⟨1, _⟩ => exact acc_rhs_axis1 _ _)
  rw [el, er]

/-! ## The weights -/

/-- the local weight of column q in row p at grid point i -/
def lw (i : grid0.Coords) (v3 v5 : Vec Ideal S1024x128 .f32) (p q : Fin 1024) : EReal :=
  if (i 0).val * 1024 + p.val = (i 1).val * 1024 + q.val then 0
  else Ideal.exp ((∑ k : Fin 128, v3 (ix2 p k) * v5 (ix2 q k)) * ((2 : ℝ) : EReal))

/-- The masked exponential block at (p, q) is the local weight. -/
theorem weight_apply (i : grid0.Coords) (v3 v5 : Vec Ideal S1024x128 .f32) (p q : Fin 1024) :
    select
        (cmpi .eq (addi (broadcast S1024x1024 (Scalar.muli (BitVec.ofNat 32 (i 0).val) 1024#32))
            (iota .tc S1024x1024 32 [0] iota_S1024x1024_d0_w32))
          (addi (broadcast S1024x1024 (Scalar.muli (BitVec.ofNat 32 (i 1).val) 1024#32))
            (iota .tc S1024x1024 32 [1] iota_S1024x1024_d1_w32)))
        (broadcast S1024x1024 (Scalar.ofBits (F := Ideal) .f32 0x00000000#32))
        (exp (mulf
          (matmul dot_S1024x128_S128x1024_S1024x1024_1_0_0_1_n_n none (truncf .bf16 v3 bitsLt_bf16_f32)
            (transpose S128x1024 [1, 0] (truncf .bf16 v5 bitsLt_bf16_f32) transposes_S1024x128_p1_0_S128x1024)
            (constant (F := Ideal) S1024x1024 .f32 0x00000000#32))
          (broadcast S1024x1024 (Scalar.ofBits (F := Ideal) .f32 0x40000000#32)))) (ix2 p q)
      = lw i v3 v5 p q := by
  rw [select_apply]
  unfold lw
  by_cases h : (i 0).val * 1024 + p.val = (i 1).val * 1024 + q.val
  · rw [(mask_apply i p q).2 h, select_one, if_pos h]
    exact Ideal.ofBits_zero_f32
  · rw [eq_zero_of_ne_one (fun hc => h ((mask_apply i p q).1 hc)), select_zero, if_neg h]
    show Ideal.exp (matmul dot_S1024x128_S128x1024_S1024x1024_1_0_0_1_n_n none (truncf .bf16 v3 bitsLt_bf16_f32)
        (transpose S128x1024 [1, 0] (truncf .bf16 v5 bitsLt_bf16_f32) transposes_S1024x128_p1_0_S128x1024)
        (constant (F := Ideal) S1024x1024 .f32 0x00000000#32) (ix2 p q) * Ideal.ofBits .f32 0x40000000#32) = _
    rw [sim_apply, ofBits_two]

/-! ## The two payloads -/

/-- The clearing store writes zero everywhere. -/
theorem pay1_apply (y : S1024x17.Idx) : k0_pay1 (F := Ideal) y = 0 := by
  unfold k0_pay1
  refine (congrFun (shapeCast_self _ _) y).trans ?_
  exact Ideal.ofBits_zero_f32

/-- The accumulating store at (p, c): the accumulator plus the block's weights against column c of the labels. -/
theorem pay2_apply (i : grid0.Coords) (v3 v5 : Vec Ideal S1024x128 .f32) (v24 v28 : Vec Ideal S1024x17 .f32)
    (p : Fin 1024) (c : Fin 17) :
    k0_pay2 (F := Ideal) i v3 v5 v24 v28 (ix2 p c)
      = v28 (ix2 p c) + ∑ q : Fin 1024, lw i v3 v5 p q * v24 (ix2 q c) := by
  unfold k0_pay2
  refine (congrFun (shapeCast_self _ _) (ix2 p c)).trans ?_
  refine congrArg (v28 (ix2 p c) + ·) ?_
  refine (acc_matmul_apply _ _ p c).trans ?_
  refine Finset.sum_congr rfl fun q _ => ?_
  refine congrArg₂ (· * ·) ?_ ?_
  · exact weight_apply i v3 v5 p q
  · exact congrFun (shapeCast_self v24 _) (ix2 q c)

end Cert.KernelIdeal.Hand

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.Spec.lean ====
/-
  The mathematics of the contrastive-loss reduction, over the extended reals, with no program in sight.

  For embeddings `x` (8192 rows of 128) the similarity of rows `r` and `n` is their inner product; its exponential at
  inverse temperature 2, with the diagonal zeroed, is the weight `ew x r n`. Against a matrix `la` of 8192 rows and 17
  columns (a column of ones beside the 16 float labels) the reduction is `red x la r c = 0 + ∑ n, ew x r n * la (n, c)`:
  column 0 is the row's denominator, columns 1 … 16 the per-class positive sums. A kernel that walks the columns `n` in 8
  blocks of 1024, clearing an accumulator before the first block and adding one block's partial sum per step, computes
  exactly that (`walk_eq_red`): only associativity of addition is used, so no term needs to be finite. The two programs
  write the temperature differently — a product with 2, a quotient by 1/2 — and those agree on every extended real
  (`div_half`).
-/
import proofs.«129707_j15676630630501_1_alg».proof.Proof.LibBlockSum
import Idealize.ShloMosaic.Lib.ValueIdx
import Idealize.ShloMosaic.PureOps.Ideal.Laws
import Mathlib.Algebra.BigOperators.Fin

noncomputable section

namespace Cert.Spec

open Idealize.ShloMosaic Idealize.ShloMosaic.ValueIdx Finset

/-- Embeddings, the augmented label matrix, and the reduction's result, as functions of literal index types. -/
abbrev Emb := (⟨2, ![8192, 128]⟩ : Shape).Idx → EReal
abbrev Aug := (⟨2, ![8192, 17]⟩ : Shape).Idx → EReal

/-- The augmented matrix `[1 | l]`: a column of ones beside the 16 columns of `l`. -/
def aug (l : (⟨2, ![8192, 16]⟩ : Shape).Idx → EReal) : Aug := fun i =>
  if h : (i 1).val = 0 then 1 else l (ix2 (i 0) ⟨(i 1).val - 1, by have h17 : (i 1).val < 17 := (i 1).isLt; omega⟩)

/-- The inner product of rows `r` and `n` of the embeddings. -/
def sim (x : Emb) (r n : Fin 8192) : EReal := ∑ k : Fin 128, x (ix2 r k) * x (ix2 n k)

/-- The weight of column `n` in row `r`: zero on the diagonal, else the exponential of twice the similarity. -/
def ew (x : Emb) (r n : Fin 8192) : EReal := if r = n then 0 else Ideal.exp (sim x r n * ((2 : ℝ) : EReal))

/-- The reduction: row `r`, column `c` of `ew · la`, added onto zero. -/
def red (x : Emb) (la : Aug) (r : Fin 8192) (c : Fin 17) : EReal := 0 + ∑ n : Fin 8192, ew x r n * la (ix2 n c)

/-- The term of column `n` (a natural number; zero beyond the extent). -/
def term (x : Emb) (la : Aug) (r : Fin 8192) (c : Fin 17) (n : ℕ) : EReal :=
  if h : n < 8192 then ew x r ⟨n, h⟩ * la (ix2 ⟨n, h⟩ c) else 0

/-- Block `j` (1024 columns) of row `r`, column `c`: what one grid point adds. -/
def part (x : Emb) (la : Aug) (r : Fin 8192) (c : Fin 17) (j : ℕ) : EReal :=
  ∑ q : Fin 1024, term x la r c (j * 1024 + q.val)

/-- The accumulator after blocks `0 … j`: cleared, then one block added per step. -/
def walk (x : Emb) (la : Aug) (r : Fin 8192) (c : Fin 17) : ℕ → EReal
  | 0 => 0 + part x la r c 0
  | j + 1 => walk x la r c j + part x la r c (j + 1)

/-- One grid point's partial sum is block `j` (width 1024) of the row's terms. -/
theorem part_eq_block (x : Emb) (la : Aug) (r : Fin 8192) (c : Fin 17) (j : ℕ) :
    part x la r c j = block (term x la r c) 1024 j := by
  unfold part block
  exact Fin.sum_univ_eq_sum_range (fun q => term x la r c (j * 1024 + q)) 1024

/-- The accumulator is the blocks `0 … j` added left to right onto zero. -/
theorem walk_eq_accum0 (x : Emb) (la : Aug) (r : Fin 8192) (c : Fin 17) (j : ℕ) :
    walk x la r c j = accum0 (term x la r c) 1024 j := by
  induction j with
  | zero => show 0 + part x la r c 0 = 0 + block _ 1024 0; rw [part_eq_block]
  | succ j ih =>
    show walk x la r c j + part x la r c (j + 1) = accum0 _ 1024 j + block _ 1024 (j + 1)
    rw [ih, part_eq_block]

/-- After the eighth block the accumulator holds the whole reduction. -/
theorem walk_eq_red (x : Emb) (la : Aug) (r : Fin 8192) (c : Fin 17) : walk x la r c 7 = red x la r c := by
  -- eight blocks of 1024 are the first 8192 terms, and every one of those is a term of the reduction
  rw [walk_eq_accum0, accum0_eq, red, zero_add]
  show ∑ i ∈ range 8192, term x la r c i = _
  rw [← Fin.sum_univ_eq_sum_range (fun i => term x la r c i) 8192]
  refine Finset.sum_congr rfl fun n _ => ?_
  unfold term
  rw [dif_pos n.isLt]

/-- A quotient by one half is a product with two, on every extended real. -/
theorem div_half (a : EReal) : Ideal.div a (((1 / 2 : ℝ)) : EReal) = a * ((2 : ℝ) : EReal) := by
  -- a quotient by a nonzero real is the product with its reciprocal, and 1 / (1 / 2) = 2
  rw [Ideal.div_coe (by norm_num)]
  norm_num

end Cert.Spec

end
-- ==== Proof.KI.Iface.lean ====
/-
  The kernel side's value lemmas gathered under one import: the body's payloads read at an index, each case's pieces as
  payloads, and the windows' blocks read at an index.
-/
import proofs.«129707_j15676630630501_1_alg».proof.Proof.KI.Pieces
import proofs.«129707_j15676630630501_1_alg».proof.Proof.KI.Blocks
import proofs.«129707_j15676630630501_1_alg».proof.Proof.KI.Pay
import proofs.«129707_j15676630630501_1_alg».proof.Proof.Spec
-- ==== Proof.KI.Value.lean ====
/-
  The value of the region's output array at the ideal instance.

  The 64 grid points are walked in the order t = 8·i + j. One point's payload adds, at row p and column k of the
  accumulator, the partial sum of global row i·1024 + p over column block j of the weights against the augmented
  labels; so after point t the accumulator holds the walk of the specification through blocks 0 … j, and at j = 7 the
  whole reduction. The output block i is stored with that value at j = 7, and the eight write-backs cover the array.
-/
import proofs.«129707_j15676630630501_1_alg».proof.Proof.KI.Iface
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (m : (ℓ : Loc nD τ sig) → Buf (Elt Ideal) ℓ)

/-- The embeddings as the region finds them. -/
abbrev embA (c : Dev nD) : Cert.Spec.Emb := V (F := Ideal) m c main_arg0
/-- The augmented label matrix as the region finds it. -/
abbrev augA (c : Dev nD) : Cert.Spec.Aug := V (F := Ideal) m c main_v2

/-! ## One point's payload is one step of the walk -/

/-- The payload's weight of local row p against local column q is the specification's weight of the two global rows,
    when the two blocks of embeddings are read off one array at those rows. -/
theorem lw_eq_ew (i : grid0.Coords) (x : Cert.Spec.Emb) (v3 v5 : Vec Ideal S1024x128 .f32) (a b : ℕ) (p q : Fin 1024)
    (ha : (i 0).val = a) (hb : (i 1).val = b) (hp : a * 1024 + p.val < 8192) (hq : b * 1024 + q.val < 8192)
    (h3 : ∀ k : Fin 128, v3 (ix2 p k) = x (ix2 ⟨a * 1024 + p.val, hp⟩ k))
    (h5 : ∀ k : Fin 128, v5 (ix2 q k) = x (ix2 ⟨b * 1024 + q.val, hq⟩ k)) :
    lw i v3 v5 p q = Cert.Spec.ew x ⟨a * 1024 + p.val, hp⟩ ⟨b * 1024 + q.val, hq⟩ := by
  unfold lw Cert.Spec.ew Cert.Spec.sim
  rw [ha, hb]
  simp only [h3, h5, Fin.mk.injEq]

theorem part_step (c : Dev nD) (t : Fin cfg0.N) (p : Fin 1024) (k : Fin 17) (h : t.val / 8 * 1024 + p.val < 8192) :
    (∑ q : Fin 1024, lw (grid0.coords t) (iblk m c 0 t) (iblk m c 1 t) p q * (iblk m c 2 t : S1024x17.Idx → EReal) (ix2 q k))
      = Cert.Spec.part (embA m c) (augA m c) ⟨t.val / 8 * 1024 + p.val, h⟩ k (t.val % 8) := by
  unfold Cert.Spec.part
  refine Finset.sum_congr rfl fun q _ => ?_
  have hq : t.val % 8 * 1024 + q.val < 8192 := by have := q.isLt; omega
  unfold Cert.Spec.term
  rw [dif_pos hq]
  rw [lw_eq_ew (grid0.coords t) (embA m c) (iblk m c 0 t) (iblk m c 1 t) (t.val / 8) (t.val % 8) p q (coords0 t) (coords1 t) h hq
    (fun k' => iblk0_apply (F := Ideal) m c t p k' h) (fun k' => iblk1_apply (F := Ideal) m c t q k' hq)]
  rw [iblk2_apply (F := Ideal) m c t q k hq]

/-- The same, the global row and the block named by equations. -/
theorem part_step_at (c : Dev nD) (n : ℕ) (hn : n < cfg0.N) (p : Fin 1024) (k : Fin 17) (r : Fin 8192) (j : ℕ)
    (hr : r.val = n / 8 * 1024 + p.val) (hj : j = n % 8) :
    (∑ q : Fin 1024, lw (grid0.coords ⟨n, hn⟩) (iblk m c 0 ⟨n, hn⟩) (iblk m c 1 ⟨n, hn⟩) p q * (iblk m c 2 ⟨n, hn⟩ : S1024x17.Idx → EReal) (ix2 q k))
      = Cert.Spec.part (embA m c) (augA m c) r k j := by
  have h : n / 8 * 1024 + p.val < 8192 := hr ▸ r.isLt
  obtain rfl : r = ⟨n / 8 * 1024 + p.val, h⟩ := Fin.ext hr
  subst hj
  exact part_step m c ⟨n, hn⟩ p k h

/-- The payload at an index: what the accumulator held plus this point's partial sum. -/
theorem pay2_step (i : grid0.Coords) (v3 v5 : Vec Ideal S1024x128 .f32) (v24 v28 : Vec Ideal S1024x17 .f32) (p : Fin 1024) (k : Fin 17)
    (acc part : EReal) (hacc : v28 (ix2 p k) = acc) (hpart : (∑ q : Fin 1024, lw i v3 v5 p q * v24 (ix2 q k)) = part) :
    k0_pay2 (F := Ideal) i v3 v5 v24 v28 (ix2 p k) = acc + part :=
  (pay2_apply i v3 v5 v24 v28 p k).trans (by rw [hacc, hpart])

/-! ## The accumulator after each point is the walk -/

/-- After point n = 8·i + j the accumulator's row p holds the walk of global row i·1024 + p through blocks 0 … j. -/
theorem acc_walk_at (c : Dev nD) : ∀ (n : ℕ) (hn : n < cfg0.N) (p : Fin 1024) (k : Fin 17) (r : Fin 8192) (j : ℕ),
    r.val = n / 8 * 1024 + p.val → j = n % 8 →
    ((outsAt0 m c n hn).2 : S1024x17.Idx → EReal) (ix2 p k) = Cert.Spec.walk (embA m c) (augA m c) r k j := by
  intro n
  induction n using Nat.strong_induction_on with
  | _ n ih =>
    intro hn p k r j hr hj
    have hN : n < 64 := lt_of_lt_of_eq hn N_0
    by_cases h0 : n % 8 = 0
    · have h1 : ¬n % 8 = 7 := by omega
      rw [outsAt0_A m c ⟨n, hn⟩ h0 h1]
      dsimp only
      refine (congrFun (sout0_A_0_eq (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h))
        (iblk m c 0 ⟨n, hn⟩) (iblk m c 1 ⟨n, hn⟩) (iblk m c 2 ⟨n, hn⟩)) (ix2 p k)).trans ?_
      refine (pay2_step (grid0.coords ⟨n, hn⟩) (iblk m c 0 ⟨n, hn⟩) (iblk m c 1 ⟨n, hn⟩) (iblk m c 2 ⟨n, hn⟩) (k0_pay1 (F := Ideal)) p k
        0 (Cert.Spec.part (embA m c) (augA m c) r k j) (pay1_apply (ix2 p k)) (part_step_at m c n hn p k r j hr hj)).trans ?_
      obtain rfl : j = 0 := hj.trans h0
      rfl
    · obtain ⟨j', rfl⟩ : ∃ j', j = j' + 1 := ⟨j - 1, by omega⟩
      have hn' : n - 1 < cfg0.N := Nat.lt_of_le_of_lt (Nat.sub_le _ _) hn
      have hih : ((outsAt0 m c (n - 1) hn').2 : S1024x17.Idx → EReal) (ix2 p k) = Cert.Spec.walk (embA m c) (augA m c) r k j' :=
        ih (n - 1) (by omega) hn' p k r j' (by omega) (by omega)
      by_cases h1 : n % 8 = 7
      · rw [outsAt0_C m c ⟨n, hn⟩ h0 h1]
        dsimp only
        refine (congrFun (sout0_C_0_eq (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) ((hcond0_1 ⟨n, hn⟩).mpr h1)
          (iblk m c 0 ⟨n, hn⟩) (iblk m c 1 ⟨n, hn⟩) (iblk m c 2 ⟨n, hn⟩) (outsAt0 m c (n - 1) hn').2) (ix2 p k)).trans ?_
        exact pay2_step (grid0.coords ⟨n, hn⟩) (iblk m c 0 ⟨n, hn⟩) (iblk m c 1 ⟨n, hn⟩) (iblk m c 2 ⟨n, hn⟩) (outsAt0 m c (n - 1) hn').2 p k
          (Cert.Spec.walk (embA m c) (augA m c) r k j') (Cert.Spec.part (embA m c) (augA m c) r k (j' + 1)) hih
          (part_step_at m c n hn p k r (j' + 1) hr hj)
      · rw [outsAt0_B m c ⟨n, hn⟩ h0 h1]
        dsimp only
        refine (congrFun (sout0_B_0_eq (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) (fun h => h1 ((hcond0_1 ⟨n, hn⟩).mp h))
          (iblk m c 0 ⟨n, hn⟩) (iblk m c 1 ⟨n, hn⟩) (iblk m c 2 ⟨n, hn⟩) (outsAt0 m c (n - 1) hn').2) (ix2 p k)).trans ?_
        exact pay2_step (grid0.coords ⟨n, hn⟩) (iblk m c 0 ⟨n, hn⟩) (iblk m c 1 ⟨n, hn⟩) (iblk m c 2 ⟨n, hn⟩) (outsAt0 m c (n - 1) hn').2 p k
          (Cert.Spec.walk (embA m c) (augA m c) r k j') (Cert.Spec.part (embA m c) (augA m c) r k (j' + 1)) hih
          (part_step_at m c n hn p k r (j' + 1) hr hj)

theorem acc_walk (c : Dev nD) (t : Fin cfg0.N) (p : Fin 1024) (k : Fin 17) (h : t.val / 8 * 1024 + p.val < 8192) :
    ((outsAt0 m c t.val t.isLt).2 : S1024x17.Idx → EReal) (ix2 p k) = Cert.Spec.walk (embA m c) (augA m c) ⟨t.val / 8 * 1024 + p.val, h⟩ k (t.val % 8) :=
  acc_walk_at m c t.val t.isLt p k ⟨t.val / 8 * 1024 + p.val, h⟩ (t.val % 8) rfl rfl

/-! ## The output array after the last point -/

/-- The output window's block index at point t: row block t / 8, the one column block. -/
theorem oindex (t : Fin cfg0.N) : win0_3.index t 0 = t.val / 8 ∧ win0_3.index t 1 = 0 :=
  (by decide +kernel : ∀ t : Fin grid0.N, win0_3.index t 0 = t.val / 8 ∧ win0_3.index t 1 = 0) t

/-- The whole reduction, as contents of the output array. -/
abbrev redA (c : Dev nD) : Vec Ideal S8192x17 .f32 := fun i => Cert.Spec.red (embA m c) (augA m c) (i 0) (i 1)

/-- At a point that copies the accumulator out, the output block is left at the accumulator's contents. -/
theorem out_eq_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (out0_C_3_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2).trans
    (sout0_C_0_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2).symm

/-- Block t of contents of the output array, at row p and column k: the array at global row (t / 8)·1024 + p. -/
theorem oblk_read (t : Fin cfg0.N) (G : Vec Ideal S8192x17 .f32) (p : Fin 1024) (k : Fin 17) (h : t.val / 8 * 1024 + p.val < 8192) :
    (((cfg0.win 3).blk t).view.read (Elt Ideal) G : S1024x17.Idx → EReal) (ix2 p k) = G (ix2 ⟨t.val / 8 * 1024 + p.val, h⟩ k) := by
  rw [View.read_apply]
  show G _ = G _
  congr 1
  funext a
  apply Fin.ext
  match a with
  | ⟨0, _⟩ => show win0_3.index t 0 * 1024 + 1 * p.val = t.val / 8 * 1024 + p.val; rw [(oindex t).1]; omega
  | ⟨1, _⟩ => show win0_3.index t 1 * 17 + 1 * k.val = k.val; rw [(oindex t).2]; omega

/-- What a write-back writes is its block of the whole reduction. -/
theorem flushed3_eq (c : Dev nD) (t : Fin cfg0.N) (hf : (cfg0.win 3).flush t = true) :
    (dats m 0 c).flushed 3 t = ((cfg0.win 3).blk t).view.read (Elt Ideal) (redA m c) := by
  have h7 : t.val % 8 = 7 := (flush0_3 t).mp hf
  have hN : t.val < 64 := lt_of_lt_of_eq t.isLt N_0
  show (cfg0.win 3).cut (grid0.coords t) ((dats m 0 c).after 3 t) = _
  rw [after0_3, out_eq_acc m c t h7]
  funext y
  obtain ⟨p, k, rfl⟩ : ∃ (p : Fin 1024) (k : Fin 17), y = ix2 p k := ⟨y 0, y 1, eq_ix2 (n0 := 1024) (n1 := 17) y⟩
  have h : t.val / 8 * 1024 + p.val < 8192 := by have := p.isLt; omega
  refine Eq.trans (acc_walk m c t p k h) ?_
  rw [h7, Cert.Spec.walk_eq_red]
  exact (oblk_read t (redA m c) p k h).symm

/-- Row r of the output array is written back at the point 8·(r / 1024) + 7. -/
theorem cover3 (i : S8192x17.Idx) : ∃ t : Fin cfg0.N, (cfg0.win 3).flush t = true ∧ i ∈ ((cfg0.win 3).blk t).view.set := by
  have hr : (i 0).val < 8192 := (i 0).isLt
  have hk : (i 1).val < 17 := (i 1).isLt
  have ht : 8 * ((i 0).val / 1024) + 7 < cfg0.N := by rw [show cfg0.N = 64 from N_0]; omega
  refine ⟨⟨8 * ((i 0).val / 1024) + 7, ht⟩, (flush0_3 _).mpr (by dsimp only; omega), ?_⟩
  show i ∈ ((View.whole main_v3).slice (win0_3.rect ⟨8 * ((i 0).val / 1024) + 7, ht⟩)).set
  rw [View.set_slice_whole, Rect.mem_set_unit]
  intro a
  match a with
  | ⟨0, _⟩ =>
    show win0_3.index ⟨8 * ((i 0).val / 1024) + 7, ht⟩ 0 * 1024 ≤ (i 0).val ∧ (i 0).val < win0_3.index ⟨8 * ((i 0).val / 1024) + 7, ht⟩ 0 * 1024 + 1024
    rw [(oindex ⟨8 * ((i 0).val / 1024) + 7, ht⟩).1]
    dsimp only
    omega
  | ⟨1, _⟩ =>
    show win0_3.index ⟨8 * ((i 0).val / 1024) + 7, ht⟩ 1 * 17 ≤ (i 1).val ∧ (i 1).val < win0_3.index ⟨8 * ((i 0).val / 1024) + 7, ht⟩ 1 * 17 + 17
    rw [(oindex ⟨8 * ((i 0).val / 1024) + 7, ht⟩).2]
    omega

theorem out_final (c : Dev nD) (r : Fin 8192) (k : Fin 17) :
    ((dats (F := Ideal) m 0 c).arrAt 3 cfg0.N : S8192x17.Idx → EReal) (ix2 r k) = Cert.Spec.red (embA m c) (augA m c) r k :=
  congrFun ((dats (F := Ideal) m 0 c).arrAt_eq_of_cover 3 (redA m c) (flushed3_eq m c) cover3) (ix2 r k)

end Cert.KernelIdeal.Hand

end
-- ==== Proof.KI.Host.lean ====
/-
  The host side of the idealized kernel program: what the four operations before the region leave in the buffers the
  region reads, and what the operations after the region leave untouched.

  Before the region the integer labels are converted to floats, a column of ones is made, and the two are joined into
  the augmented matrix `[1 | L]` (8192 rows, 17 columns: column 0 is one, columns 1 … 16 are the labels). The inputs
  themselves are not written. After the region every operation writes a buffer of its own: none of them is an array a
  window of the pipeline stands on, and none is the labels' buffer.
-/
import proofs.«129707_j15676630630501_1_alg».proof.Proof.KI.Base
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ) (c : Dev nD)

/-! ## The buffers when the region is entered -/

/-- The embeddings are an input: no operation before the region writes them. -/
theorem V_main_arg0 : V m c main_arg0 = m ((c : Thread nD τ).loc main_arg0) := by
  dsimp only [V, V0]
  simp only [hostOps0, List.flatten_cons, List.flatten_nil, List.append_nil]
  after_results

/-- Nor the integer labels. -/
theorem V_main_arg1 : V m c main_arg1 = m ((c : Thread nD τ).loc main_arg1) := by
  dsimp only [V, V0]
  simp only [hostOps0, List.flatten_cons, List.flatten_nil, List.append_nil]
  after_results

/-- The float labels are the integer labels converted. -/
theorem V_main_v0 : V m c main_v0 = sitofp (F := F) .f32 (m ((c : Thread nD τ).loc main_arg1)) := by
  dsimp only [V, V0]
  simp only [hostOps0, List.flatten_cons, List.flatten_nil, List.append_nil]
  after_results

/-- The augmented matrix is a column of ones joined on the left of the float labels. -/
theorem V_main_v2 : V m c main_v2
    = concatenate S8192x17 1
        [⟨S8192x1, broadcastInDim S8192x1 ![] bcast_S_S8192x1 (constant (F := F) S_ .f32 0x3F800000#32)⟩,
         ⟨S8192x16, sitofp (F := F) .f32 (m ((c : Thread nD τ).loc main_arg1))⟩]
        concatenates_S8192x1_S8192x16_S8192x17_d1 := by
  dsimp only [V, V0]
  simp only [hostOps0, List.flatten_cons, List.flatten_nil, List.append_nil]
  after_results

/-! ## What the operations after the region leave alone -/

/-- The buffers the region reads or writes and the labels' buffer: the two inputs, the augmented matrix, the output. -/
abbrev AroundRegion (r : Ref sig .tc) : Prop := r = main_arg0 ∨ r = main_arg1 ∨ r = main_v2 ∨ r = main_v3

/- Stretch by stretch, each operation after the region writes only its own result buffer, which is none of those. -/
theorem hostOps1_keeps {r : Ref sig .tc} (hr : AroundRegion r) :
    ∀ op ∈ (hostOps1 : List (HloOp τ sig (Elt F))), Proc.devRef .tc r ∉ op.writes := by
  intro op hop
  simp only [hostOps1, List.mem_cons, List.mem_nil_iff, or_false] at hop
  rcases hr with rfl | rfl | rfl | rfl <;> rcases hop with rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_1_keeps {r : Ref sig .tc} (hr : AroundRegion r) :
    ∀ op ∈ (hostOps1_1 : List (HloOp τ sig (Elt F))), Proc.devRef .tc r ∉ op.writes := by
  intro op hop
  simp only [hostOps1_1, List.mem_cons, List.mem_nil_iff, or_false] at hop
  rcases hr with rfl | rfl | rfl | rfl <;> rcases hop with rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_2_keeps {r : Ref sig .tc} (hr : AroundRegion r) :
    ∀ op ∈ (hostOps1_2 : List (HloOp τ sig (Elt F))), Proc.devRef .tc r ∉ op.writes := by
  intro op hop
  simp only [hostOps1_2, List.mem_cons, List.mem_nil_iff, or_false] at hop
  rcases hr with rfl | rfl | rfl | rfl <;> rcases hop with rfl | rfl | rfl | rfl | rfl | rfl | rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_3_keeps {r : Ref sig .tc} (hr : AroundRegion r) :
    ∀ op ∈ (hostOps1_3 : List (HloOp τ sig (Elt F))), Proc.devRef .tc r ∉ op.writes := by
  intro op hop
  simp only [hostOps1_3, List.mem_cons, List.mem_nil_iff, or_false] at hop
  rcases hr with rfl | rfl | rfl | rfl <;> rcases hop with rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_4_keeps {r : Ref sig .tc} (hr : AroundRegion r) :
    ∀ op ∈ (hostOps1_4 : List (HloOp τ sig (Elt F))), Proc.devRef .tc r ∉ op.writes := by
  intro op hop
  simp only [hostOps1_4, List.mem_cons, List.mem_nil_iff, or_false] at hop
  rcases hr with rfl | rfl | rfl | rfl <;> rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_5_keeps {r : Ref sig .tc} (hr : AroundRegion r) :
    ∀ op ∈ (hostOps1_5 : List (HloOp τ sig (Elt F))), Proc.devRef .tc r ∉ op.writes := by
  intro op hop
  simp only [hostOps1_5, List.mem_cons, List.mem_nil_iff, or_false] at hop
  rcases hr with rfl | rfl | rfl | rfl <;> rcases hop with rfl | rfl | rfl <;>
    simp only [StableHlo.nullary_writes, StableHlo.unary_writes, StableHlo.binary_writes, StableHlo.ternary_writes, StableHlo.reshape_writes, Finset.mem_singleton] <;>
    exact StableHlo.devRef_ne_of_ne (by decide)
theorem hostOps1_6_keeps {r : Ref sig .tc} (hr : AroundRegion r) :
    ∀ op ∈ (hostOps1_6 : List (HloOp τ sig (Elt F))), Proc.devRef .tc r ∉ op.writes := by
  intro op hop
  simp only [hostOps1_6, List.mem_cons, List.mem_nil_iff, or_false] at hop
  rcases hr with rfl | rfl | rfl | rfl <;> rcases hop with rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- No operation after the region writes any of them. -/
theorem tail_keeps_aroundRegion {r : Ref sig .tc} (hr : AroundRegion r) :
    ∀ ops ∈ (tailOps : List (List (HloOp τ sig (Elt F)))), ∀ op ∈ ops, Proc.devRef .tc r ∉ op.writes := by
  intro ops hops
  simp only [tailOps, List.mem_cons, List.mem_nil_iff, or_false] at hops
  rcases hops with rfl | rfl | rfl | rfl | rfl | rfl | rfl
  · exact hostOps1_keeps hr
  · exact hostOps1_1_keeps hr
  · exact hostOps1_2_keeps hr
  · exact hostOps1_3_keeps hr
  · exact hostOps1_4_keeps hr
  · exact hostOps1_5_keeps hr
  · exact hostOps1_6_keeps hr

/-- Every window of the pipeline stands on one of them. -/
theorem arrRef_aroundRegion (w : Fin 4) : AroundRegion (Pipeline.arrRef spec0 w) := by
  fin_cases w
  · exact Or.inl rfl
  · exact Or.inl rfl
  · exact Or.inr (Or.inr (Or.inl rfl))
  · exact Or.inr (Or.inr (Or.inr rfl))

/-- The operations after the region write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps_aroundRegion (arrRef_aroundRegion w) ops hops op hop

/-- Nor the integer labels: they are after the tail what they were before it. -/
theorem tail_keeps_arg1 (W : Valuation τ sig (Elt F)) :
    StableHlo.after (tailOps (F := F)).flatten W (Proc.devRef .tc main_arg1) = W (Proc.devRef .tc main_arg1) :=
  StableHlo.after_of_forall_not_mem _ W fun op hop => by
    obtain ⟨ops, hops, hop'⟩ := List.mem_flatten.mp hop
    exact tail_keeps_aroundRegion (Or.inr (Or.inl rfl)) ops hops op hop'

/-! ## The augmented matrix at an index -/

section AugRead
variable {α : Type}

/-- A one-column matrix joined on the left of a sixteen-column one, read in column 0: the one-column matrix. -/
theorem concat_left_col0 (ones : S8192x1.Idx → α) (lab : S8192x16.Idx → α) (n : Fin 8192) :
    concatenate S8192x17 1 [⟨S8192x1, ones⟩, ⟨S8192x16, lab⟩] concatenates_S8192x1_S8192x16_S8192x17_d1
      (ValueIdx.ix2 n (0 : Fin 17)) = ones (ValueIdx.ix2 n (0 : Fin 1)) := by
  refine concatenate_pair_apply_left (1 : Fin S8192x17.rank) ones lab _ _ rfl _ ?_
  intro b; fin_cases b <;> rfl

/-- Read in column k + 1: the sixteen-column matrix in column k. -/
theorem concat_left_col_succ (ones : S8192x1.Idx → α) (lab : S8192x16.Idx → α) (n : Fin 8192) (k : Fin 16) :
    concatenate S8192x17 1 [⟨S8192x1, ones⟩, ⟨S8192x16, lab⟩] concatenates_S8192x1_S8192x16_S8192x17_d1
      (ValueIdx.ix2 n (⟨k.val + 1, by omega⟩ : Fin 17)) = lab (ValueIdx.ix2 n k) := by
  refine concatenate_pair_apply_right (1 : Fin S8192x17.rank) ones lab _ _ rfl rfl _ ?_ ?_
  · intro b hb; fin_cases b
    · rfl
    · exact absurd rfl hb
  · rfl

end AugRead

end Cert.KernelIdeal.Hand

end
-- ==== Proof.KI.HostIdeal.lean ====
/-
  The augmented matrix the region reads, over the extended reals: entry by entry it is `[1 | l]` of the converted
  labels `l`. Column 0 holds the float pattern 0x3F800000, which denotes one; column k + 1 holds the label of column k
  converted from an integer.
-/
import proofs.«129707_j15676630630501_1_alg».proof.Proof.KI.Host
import proofs.«129707_j15676630630501_1_alg».proof.Proof.Spec
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The float pattern 0x3F800000 denotes one. -/
theorem ofBits_one : FloatOps.ofBits (F := Ideal) .f32 0x3F800000#32 = (1 : EReal) := by
  simp [Ideal.ofBits, Ideal.ieee, -EReal.coe_mul]; norm_num

/-- Column 0 of the augmented matrix is one. -/
theorem V_main_v2_col0 (n : Fin 8192) :
    (V (F := Ideal) m c main_v2 : S8192x17.Idx → EReal) (ix2 n (0 : Fin 17)) = (1 : EReal) := by
  rw [V_main_v2, concat_left_col0]
  exact ofBits_one

/-- Column k + 1 is the converted label of column k. -/
theorem V_main_v2_col_succ (n : Fin 8192) (k : Fin 16) :
    (V (F := Ideal) m c main_v2 : S8192x17.Idx → EReal) (ix2 n (⟨k.val + 1, by omega⟩ : Fin 17))
      = FloatOps.sitofp (F := Ideal) .f32 (m ((c : Thread nD τ).loc main_arg1) (ix2 n k)) := by
  rw [V_main_v2, concat_left_col_succ]
  rfl

/-- The augmented matrix the region reads is `[1 | l]` of the converted labels `l`, entry by entry. -/
theorem V_main_v2_apply (n : Fin 8192) (k : Fin 17) :
    (V (F := Ideal) m c main_v2 : S8192x17.Idx → EReal) (ix2 n k)
      = Cert.Spec.aug (fun j => FloatOps.sitofp (F := Ideal) .f32 (m ((c : Thread nD τ).loc main_arg1) j)) (ix2 n k) := by
  rcases k with ⟨_ | k', hk⟩
  · refine (V_main_v2_col0 m c n).trans ?_
    unfold Cert.Spec.aug
    split
    · rfl
    · next h => exact absurd rfl h
  · refine (V_main_v2_col_succ m c n ⟨k', by omega⟩).trans ?_
    unfold Cert.Spec.aug
    split
    · next h => exact absurd h (Nat.succ_ne_zero k')
    · rfl

end Cert.KernelIdeal.Hand

end
-- ==== Proof.RefTail.lean ====
/-
  The last stretch of the reference — from the row denominators and the per-class positive sums to the scalar loss — as
  one function of three arrays: the float labels, the denominators and the positive sums. Every operation of it is an
  elementwise map, a broadcast or a host sum; none looks at the embeddings again. Writing it once, over an arbitrary
  float family, lets the kernel program's own host stretch be compared with it operation by operation.
-/
import proofs.«129707_j15676630630501_1_alg».proof.Proof.RefRead

noncomputable section

namespace Cert.ReferenceIdeal.Tail

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The complementary sums: the denominator, spread over the 16 classes, minus the positive sums. -/
def complSum (dn : (⟨S8192, .f32⟩ : BufTy).Contents (Elt F)) (s1 : (⟨S8192x16, .f32⟩ : BufTy).Contents (Elt F)) : (⟨S8192x16, .f32⟩ : BufTy).Contents (Elt F) :=
  subf (broadcastInDim S8192x16 ![0, 1] bcast_S8192x1_S8192x16_0_1 (broadcastInDim S8192x1 ![0] bcast_S8192_S8192x1_0 dn)) s1

/-- Where the label is positive. -/
def labelPos (l : (⟨S8192x16, .f32⟩ : BufTy).Contents (Elt F)) : (⟨S8192x16, .i1⟩ : BufTy).Contents (Elt F) :=
  cmpf (F := F) .ogt l (broadcastInDim S8192x16 ![] bcast_S_S8192x16 (constant (F := F) S_ .f32 0x00000000#32))

/-- The sum over the rows that share the row's value of the class — the positive sums where the label is positive, the
complementary sums elsewhere — clamped from below. -/
def posSum (l : (⟨S8192x16, .f32⟩ : BufTy).Contents (Elt F)) (dn : (⟨S8192, .f32⟩ : BufTy).Contents (Elt F)) (s1 : (⟨S8192x16, .f32⟩ : BufTy).Contents (Elt F)) : (⟨S8192x16, .f32⟩ : BufTy).Contents (Elt F) :=
  maximumf (select (labelPos l) s1 (complSum dn s1)) (broadcastInDim S8192x16 ![] bcast_S_S8192x16 (constant (F := F) S_ .f32 0x322BCC77#32))

/-- The denominator plus ε, spread over the 16 classes. -/
def denEps (dn : (⟨S8192, .f32⟩ : BufTy).Contents (Elt F)) : (⟨S8192x16, .f32⟩ : BufTy).Contents (Elt F) :=
  broadcastInDim S8192x16 ![0, 1] bcast_S8192x1_S8192x16_0_1
    (addf (broadcastInDim S8192x1 ![0] bcast_S8192_S8192x1_0 dn) (broadcastInDim S8192x1 ![] bcast_S_S8192x1 (constant (F := F) S_ .f32 0x322BCC77#32)))

/-- The loss of row `r`, class `c`: minus the logarithm of the quotient. -/
def rowLoss (l : (⟨S8192x16, .f32⟩ : BufTy).Contents (Elt F)) (dn : (⟨S8192, .f32⟩ : BufTy).Contents (Elt F)) (s1 : (⟨S8192x16, .f32⟩ : BufTy).Contents (Elt F)) : (⟨S8192x16, .f32⟩ : BufTy).Contents (Elt F) :=
  Host.negf (Host.log (Host.divf (posSum l dn s1) (denEps dn)))

/-- The number of positives of each class. -/
def posCount (l : (⟨S8192x16, .f32⟩ : BufTy).Contents (Elt F)) : (⟨S16, .f32⟩ : BufTy).Contents (Elt F) :=
  Host.reduceAdd l (constant (F := F) S_ .f32 0x00000000#32) reducesTo_S8192x16_S16_d0 h_S_

/-- How many other rows share the row's value of the class: the count of positives minus one where the label is
positive, 8192 minus that count minus one elsewhere. -/
def sameCount (l : (⟨S8192x16, .f32⟩ : BufTy).Contents (Elt F)) : (⟨S8192x16, .f32⟩ : BufTy).Contents (Elt F) :=
  select (labelPos l)
    (broadcastInDim S8192x16 ![0, 1] bcast_S1x16_S8192x16_0_1
      (subf (broadcastInDim S1x16 ![1] bcast_S16_S1x16_1 (posCount l)) (broadcastInDim S1x16 ![] bcast_S_S1x16 (constant (F := F) S_ .f32 0x3F800000#32))))
    (broadcastInDim S8192x16 ![0, 1] bcast_S1x16_S8192x16_0_1
      (subf (broadcastInDim S1x16 ![1] bcast_S16_S1x16_1 (subf (broadcastInDim S16 ![] bcast_S_S16 (constant (F := F) S_ .f32 0x46000000#32)) (posCount l)))
        (broadcastInDim S1x16 ![] bcast_S_S1x16 (constant (F := F) S_ .f32 0x3F800000#32))))

/-- The validity mask, as a float: one where some other row shares the value. -/
def validMask (l : (⟨S8192x16, .f32⟩ : BufTy).Contents (Elt F)) : (⟨S8192x16, .f32⟩ : BufTy).Contents (Elt F) :=
  uitofp (F := F) .f32 (cmpf (F := F) .ogt (sameCount l) (broadcastInDim S8192x16 ![] bcast_S_S8192x16 (constant (F := F) S_ .f32 0x00000000#32)))

/-- The masked column means: the masked losses summed down each class, over the number of valid rows (at least one). -/
def classMean (l : (⟨S8192x16, .f32⟩ : BufTy).Contents (Elt F)) (dn : (⟨S8192, .f32⟩ : BufTy).Contents (Elt F)) (s1 : (⟨S8192x16, .f32⟩ : BufTy).Contents (Elt F)) : (⟨S16, .f32⟩ : BufTy).Contents (Elt F) :=
  Host.divf (Host.reduceAdd (mulf (rowLoss l dn s1) (validMask l)) (constant (F := F) S_ .f32 0x00000000#32) reducesTo_S8192x16_S16_d0 h_S_)
    (maximumf (Host.reduceAdd (validMask l) (constant (F := F) S_ .f32 0x00000000#32) reducesTo_S8192x16_S16_d0 h_S_) (broadcastInDim S16 ![] bcast_S_S16 (constant (F := F) S_ .f32 0x3F800000#32)))

/-- A class whose labels are all 0 or all 1. -/
def constClass (l : (⟨S8192x16, .f32⟩ : BufTy).Contents (Elt F)) : (⟨S16, .i1⟩ : BufTy).Contents (Elt F) :=
  ori (cmpf (F := F) .oeq (posCount l) (broadcastInDim S16 ![] bcast_S_S16 (constant (F := F) S_ .f32 0x00000000#32)))
    (cmpf (F := F) .oeq (posCount l) (broadcastInDim S16 ![] bcast_S_S16 (constant (F := F) S_ .f32 0x46000000#32)))

/-- The tail both programs share, as one function of the float labels `l`, the denominators `dn` and the positive
sums `s1`: the class means, with the constant classes skipped, added up and divided by 16. -/
def TailR (l : (⟨S8192x16, .f32⟩ : BufTy).Contents (Elt F)) (dn : (⟨S8192, .f32⟩ : BufTy).Contents (Elt F)) (s1 : (⟨S8192x16, .f32⟩ : BufTy).Contents (Elt F)) : (⟨S_, .f32⟩ : BufTy).Contents (Elt F) :=
  Host.divf
    (Host.reduceAdd (select (constClass l) (broadcastInDim S16 ![] bcast_S_S16 (constant (F := F) S_ .f32 0x00000000#32)) (classMean l dn s1)) (constant (F := F) S_ .f32 0x00000000#32) reducesTo_S16_S_d0 h_S_)
    (constant (F := F) S_ .f32 0x41800000#32)

/-- The reference's result is that tail of its own float labels, denominators and positive sums: the stages after the
two contractions use the embeddings through those three arrays only, and each stage is, by definition, the operation the
tail spells out at that place. -/
theorem ref_tail (x0 : (⟨S8192x128, .f32⟩ : BufTy).Contents (Elt F)) (x1 : (⟨S8192x16, .i32⟩ : BufTy).Contents (Elt F)) :
    val_main_v57 (F := F) x0 x1
      = TailR (val_main_v0 (F := F) x1) (val_main_v12 (F := F) x0) (val_main_v13 (F := F) x0 x1) := rfl

end Cert.ReferenceIdeal.Tail

end
-- ==== Proof.KI.Tail.lean ====
/-
  The operations after the region, as one function: what they leave in the result buffer is the reference's last
  stretch applied to the float labels, the first column of the region's output (the row denominators) and its other
  sixteen columns (the per-class positive sums).
-/
import proofs.«129707_j15676630630501_1_alg».proof.Proof.KI.Base
import proofs.«129707_j15676630630501_1_alg».proof.Proof.RefTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- After the tail the result buffer holds the reference's last stretch of the float labels, the denominators (column 0
    of the region's output, as a vector) and the positive sums (its columns 1 … 16). -/
theorem tail_eq [Cert.ReferenceIdeal.Facts] (W : Valuation τ sig (Elt F)) :
    StableHlo.after (tailOps (F := F)).flatten W (Proc.devRef .tc main_v50)
      = Cert.ReferenceIdeal.Tail.TailR (W (Proc.devRef .tc main_v0))
          (shapeCast S8192 (extractStridedSlice S8192x1 ![0, 0] (W (Proc.devRef .tc main_v3)) slices_S8192x17_S8192x1_0_0) shapeCasts_S8192x1_S8192)
          (extractStridedSlice S8192x16 ![0, 1] (W (Proc.devRef .tc main_v3)) slices_S8192x17_S8192x16_0_1) := by
  simp only [tailOps, hostOps1, hostOps1_1, hostOps1_2, hostOps1_3, hostOps1_4, hostOps1_5, hostOps1_6,
    List.flatten_cons, List.flatten_nil, List.append_nil, List.cons_append, List.nil_append]
  after_results_simp
  unfold Cert.ReferenceIdeal.Tail.TailR Cert.ReferenceIdeal.Tail.classMean Cert.ReferenceIdeal.Tail.constClass
    Cert.ReferenceIdeal.Tail.rowLoss Cert.ReferenceIdeal.Tail.validMask Cert.ReferenceIdeal.Tail.sameCount
    Cert.ReferenceIdeal.Tail.posSum Cert.ReferenceIdeal.Tail.denEps Cert.ReferenceIdeal.Tail.posCount
    Cert.ReferenceIdeal.Tail.labelPos Cert.ReferenceIdeal.Tail.complSum
  rfl

end Cert.KernelIdeal.Hand

end
-- ==== Proof.RefSide.lean ====
/-
  The reference's two contractions, read at an index, are the reduction of Spec.lean.

  The reference forms the 8192 × 8192 matrix of similarities `x · xᵀ`, divides it by the temperature 1/2, takes the
  exponential, and puts zero on the diagonal (the diagonal found by comparing a row counter with a column counter).
  Entry `(r, n)` of that matrix is the weight `ew x r n`. Summing a row gives the denominator — the reduction against
  the column of ones — and contracting with the float labels gives the positive sums — the reduction against the label
  columns. Both are columns of one reduction against the augmented matrix `[1 | l]`.
-/
import proofs.«129707_j15676630630501_1_alg».proof.Proof.RefRead
import proofs.«129707_j15676630630501_1_alg».proof.Proof.Spec

noncomputable section

namespace Cert.ReferenceIdeal.Side

open Cert.ReferenceIdeal Cert.ReferenceIdeal.Gen Cert.ReferenceIdeal.ReadP Idealize.ShloMosaic Idealize.ShloMosaic.StableHlo
open Idealize.ShloMosaic.ValueIdx (ix1 ix2)

/-- The temperature's pattern denotes the real 1/2. -/
theorem temperature_is_half : Ideal.ofBits .f32 0x3F000000#32 = (((1 / 2 : ℝ)) : EReal) := by
  simp [Ideal.ofBits, Ideal.ieee, -EReal.coe_mul]; norm_num

/-- The row counter plus zero equals the column counter, as 32-bit integers, exactly on the diagonal: both counters are
below 8192, far below 2³², so neither wraps. A select on that comparison is a choice by `r = n`. -/
theorem select_on_counters_is_diagonal {α : Type} (r n : Fin 8192) (a b : α) :
    Scalar.select (IntOp.cmpi .eq (IntOp.addi (BitVec.ofNat 32 r.val) 0#32) (BitVec.ofNat 32 n.val)) a b
      = if r = n then a else b := by
  by_cases h : r = n
  · subst h; simp [Scalar.select, IntOp.cmpi, IntOp.addi]
  · have hne : BitVec.ofNat 32 r.val ≠ BitVec.ofNat 32 n.val := by
      intro e
      have e' := congrArg BitVec.toNat e
      rw [BitVec.toNat_ofNat, BitVec.toNat_ofNat, Nat.mod_eq_of_lt (by have := r.isLt; omega),
        Nat.mod_eq_of_lt (by have := n.isLt; omega)] at e'
      exact h (Fin.ext e')
    have hb : (BitVec.ofNat 32 r.val == BitVec.ofNat 32 n.val) = false := beq_eq_false_iff_ne.mpr hne
    simp [Scalar.select, IntOp.cmpi, IntOp.addi, hb, h]

/-- Column 0 of the augmented matrix is the column of ones. -/
theorem aug_ones_column (l : (⟨2, ![8192, 16]⟩ : Shape).Idx → EReal) (n : Fin 8192) :
    Cert.Spec.aug l (ix2 n (0 : Fin 17)) = 1 := dif_pos rfl

/-- Column `c + 1` of the augmented matrix is column `c` of the labels. -/
theorem aug_label_column (l : (⟨2, ![8192, 16]⟩ : Shape).Idx → EReal) (n : Fin 8192) (c : Fin 16) :
    Cert.Spec.aug l (ix2 n c.succ) = l (ix2 n c) :=
  (dif_neg (show ¬ (c.succ).val = 0 by simp)).trans
    (congrArg l (funext fun a => by
      match a with
      | ⟨0, _⟩ => rfl
      | ⟨1, _⟩ => exact Fin.ext (by show c.succ.val - 1 = c.val; simp)))

/-- Entry `(r, n)` of the masked exponential matrix is the weight: zero on the diagonal, elsewhere the exponential of
the similarity over one half, which is the exponential of twice the similarity. -/
theorem masked_exp_is_weight (x0 : (⟨S8192x128, .f32⟩ : BufTy).Contents (Elt Ideal)) (r n : Fin 8192) :
    val_main_v11 (F := Ideal) x0 (ix2 r n) = Cert.Spec.ew x0 r n := by
  rw [val_main_v11_apply, val_main_v9_apply, val_main_v8_apply, val_main_v5_apply, val_main_v7_apply, val_main_c_apply,
    val_main_v6_apply, val_main_call0_v1_apply, val_main_call0_v0_apply, val_main_cst_0_apply, val_main_v10_apply,
    val_main_v4_apply, val_main_v3_apply, val_main_cst_apply, val_main_v2_apply]
  show Scalar.select (IntOp.cmpi .eq (IntOp.addi (BitVec.ofNat 32 r.val) 0#32) (BitVec.ofNat 32 n.val)) _ _ = _
  rw [select_on_counters_is_diagonal]
  unfold Cert.Spec.ew
  by_cases h : r = n
  · rw [if_pos h, if_pos h, Ideal.ofBits_def, Ideal.ofBits_zero_f32]
  · rw [if_neg h, if_neg h, Ideal.hostUnary_exp_def, Ideal.hostDivf_def, Ideal.ofBits_def, temperature_is_half,
      Cert.Spec.div_half]
    -- the contraction with the transpose is the inner product of rows r and n
    refine congrArg (fun s => Ideal.exp (s * _)) (Finset.sum_congr rfl fun k _ => ?_)
    rw [val_main_v1_apply]
    congr 1 <;> exact congrArg x0 (funext fun a => by match a with | ⟨0, _⟩ => rfl | ⟨1, _⟩ => rfl)

/-- The reference's denominator of row `r` is column 0 of the reduction: the weights of the row, each times one, added
onto zero. -/
theorem ref_denom (x0 : (⟨S8192x128, .f32⟩ : BufTy).Contents (Elt Ideal)) (l : (⟨2, ![8192, 16]⟩ : Shape).Idx → EReal)
    (r : Fin 8192) :
    val_main_v12 (F := Ideal) x0 (ix1 r) = Cert.Spec.red x0 (Cert.Spec.aug l) r 0 := by
  rw [val_main_v12_apply, val_main_cst_1_apply, Ideal.ofBits_def, Ideal.ofBits_zero_f32]
  unfold Cert.Spec.red
  refine congrArg (0 + ·) (Finset.sum_congr rfl fun n _ => ?_)
  rw [aug_ones_column, mul_one, ← masked_exp_is_weight]
  exact congrArg _ (funext fun a => by match a with | ⟨0, _⟩ => rfl | ⟨1, _⟩ => rfl)

/-- The reference's positive sum of row `r`, class `c`, is column `c + 1` of the reduction against its own float
labels: the weights of the row times the labels of the class. -/
theorem ref_s1 (x0 : (⟨S8192x128, .f32⟩ : BufTy).Contents (Elt Ideal)) (x1 : (⟨S8192x16, .i32⟩ : BufTy).Contents (Elt Ideal))
    (r : Fin 8192) (c : Fin 16) :
    val_main_v13 (F := Ideal) x0 x1 (ix2 r c)
      = Cert.Spec.red x0 (Cert.Spec.aug (val_main_v0 (F := Ideal) x1)) r c.succ := by
  rw [val_main_v13_apply]
  unfold Cert.Spec.red
  rw [zero_add]
  refine Finset.sum_congr rfl fun n _ => ?_
  rw [aug_label_column, ← masked_exp_is_weight]
  congr 1 <;> exact congrArg _ (funext fun a => by match a with | ⟨0, _⟩ => rfl | ⟨1, _⟩ => rfl)

end Cert.ReferenceIdeal.Side

end
-- ==== Proof.LibUncolumn.lean ====
/-
  A one-column matrix laid out as a vector, read at an index.

  Reshaping `a` rows of one entry each to an array of `a` entries moves nothing: row-major, entry `(i, 0)` of the
  column sits at position `i * 1 + 0 = i`, where entry `i` of the vector sits. Stated with both indices built from
  their coordinates, so that the lemma applies to a printed reshape by unification.
-/
import Idealize.ShloMosaic.Lib.ValueLayout

noncomputable section

namespace Cert.LibUncolumn

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibUncolumn

end
-- ==== Proof.KI.Bridge.lean ====
/-
  The idealized kernel program's result is the reference's.

  After the region the kernel program slices its 8192 × 17 result: column 0, laid out as a vector, is the row's
  denominator; columns 1 … 16 are the per-class positive sums. Entry by entry these are the reference's row sums and its
  product with the float labels: both are the reduction `Spec.red` of the same embeddings against `[1 | l]`, `l` the
  labels converted to floats. Both programs then apply one and the same tail to the float labels, the denominators and the
  positive sums, so their results agree.
-/
import proofs.«129707_j15676630630501_1_alg».proof.Proof.KI.Run
import proofs.«129707_j15676630630501_1_alg».proof.Proof.KI.Value
import proofs.«129707_j15676630630501_1_alg».proof.Proof.KI.HostIdeal
import proofs.«129707_j15676630630501_1_alg».proof.Proof.KI.Tail
import proofs.«129707_j15676630630501_1_alg».proof.Proof.RefSide
import proofs.«129707_j15676630630501_1_alg».proof.Proof.LibUncolumn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The labels converted to floats. -/
abbrev labF : (⟨2, ![8192, 16]⟩ : Shape).Idx → EReal :=
  fun j => FloatOps.sitofp (F := Ideal) .f32 (m ((c : Thread nD τ).loc main_arg1) j)

/-- The embeddings the region finds are the argument. -/
theorem embA_eq : embA m c = m ((c : Thread nD τ).loc main_arg0) := V_main_arg0 m c

/-- The augmented matrix the region finds is `[1 | l]` of the converted labels. -/
theorem augA_eq : augA m c = Cert.Spec.aug (labF m c) := funext fun i => by
  rw [eq_ix2 i]; exact V_main_v2_apply m c _ _

/-- The output array after the region, entry by entry, over the argument arrays. -/
theorem out_red (r : Fin 8192) (k : Fin 17) :
    (WN m c (Proc.devRef .tc main_v3) : S8192x17.Idx → EReal) (ix2 r k)
      = Cert.Spec.red (m ((c : Thread nD τ).loc main_arg0)) (Cert.Spec.aug (labF m c)) r k := by
  rw [WN_v3, out_final, embA_eq, augA_eq]

/-- Column 0 of the output array, as a vector, is the reference's denominators. -/
theorem denom_eq :
    shapeCast S8192 (extractStridedSlice S8192x1 ![0, 0] (WN m c (Proc.devRef .tc main_v3)) slices_S8192x17_S8192x1_0_0) shapeCasts_S8192x1_S8192
      = Cert.ReferenceIdeal.ReadP.val_main_v12 (F := Ideal) (m ((c : Thread nD τ).loc main_arg0)) := by
  funext i
  obtain ⟨r, rfl⟩ : ∃ r : Fin 8192, i = ix1 r := ⟨i 0, funext fun d => by match d with | ⟨0, _⟩ => rfl⟩
  rw [Cert.LibUncolumn.shapeCast_a1_a_apply,
    extractStridedSlice_apply _ _ slices_S8192x17_S8192x1_0_0 (ix2 r (0 : Fin 1)) (ix2 r (0 : Fin 17))
      (fun a => by match a with | ⟨0, _⟩ => exact (Nat.zero_add _).symm | ⟨1, _⟩ => rfl),
    out_red, Cert.ReferenceIdeal.Side.ref_denom _ (labF m c) r]

/-- Columns 1 … 16 of the output array are the reference's positive sums. -/
theorem s1_eq :
    extractStridedSlice S8192x16 ![0, 1] (WN m c (Proc.devRef .tc main_v3)) slices_S8192x17_S8192x16_0_1
      = Cert.ReferenceIdeal.ReadP.val_main_v13 (F := Ideal) (m ((c : Thread nD τ).loc main_arg0)) (m ((c : Thread nD τ).loc main_arg1)) := by
  funext i
  obtain ⟨r, k, rfl⟩ : ∃ (r : Fin 8192) (k : Fin 16), i = ix2 r k := ⟨i 0, i 1, eq_ix2 i⟩
  refine (extractStridedSlice_apply _ _ slices_S8192x17_S8192x16_0_1 (ix2 r k) (ix2 r k.succ)
      (fun a => by match a with | ⟨0, _⟩ => exact (Nat.zero_add _).symm | ⟨1, _⟩ => exact Nat.add_comm _ _)).trans ?_
  rw [out_red, Cert.ReferenceIdeal.Side.ref_s1]
  rfl

/-- The tail's result from the exit contents is the reference's result stage of the same arguments. -/
theorem result_eq :
    StableHlo.after (tailOps (F := Ideal)).flatten (WN m c) (Proc.devRef .tc main_v50)
      = Cert.ReferenceIdeal.ReadP.val_main_v57 (F := Ideal) (m ((c : Thread nD τ).loc main_arg0)) (m ((c : Thread nD τ).loc main_arg1)) := by
  rw [tail_eq, Cert.ReferenceIdeal.Tail.ref_tail, denom_eq, s1_eq, WN_of_ne m c main_v0 (by decide)]
  exact congrArg (fun l => Cert.ReferenceIdeal.Tail.TailR l _ _) (V_main_v0 m c)

end Cert.KernelIdeal.Hand

end
-- ==== Proof.lean ====
/-
  The certificate of the contrastive-loss reduction kernel against its jnp reference.

  The kernel tiles the 8192 × 8192 matrix of exponentiated similarities into 8 × 8 blocks and, block by block, multiplies
  it with the label matrix augmented by a column of ones, accumulating over the column blocks in a scratch buffer; the
  reference forms the whole matrix, sums its rows and multiplies it with the labels. Over the extended reals the two
  compute the same denominators and positive sums (a finite sum cut into blocks and added left to right is the sum; a
  quotient by one half is a product with two; a product with one changes nothing), and both then apply the same host
  operations to them. Each program's frame — it terminates, faults nowhere and leaves its arguments unchanged — is its
  run read at the arguments: the two kernel programs' runs from the body's triple at each of the 64 grid points through
  the launch for windows that share an array, the reference's from its host operations. No finiteness of the inputs is
  used.
-/
import proofs.«129707_j15676630630501_1_alg».proof.Defs
import proofs.«129707_j15676630630501_1_alg».proof.Proof.Gen.Kernel
import proofs.«129707_j15676630630501_1_alg».proof.Proof.Gen.KernelIdeal
import proofs.«129707_j15676630630501_1_alg».proof.Proof.Gen.ReferenceIdeal
import proofs.«129707_j15676630630501_1_alg».proof.Proof.Gen.Pre_finite_inputs
import proofs.«129707_j15676630630501_1_alg».proof.Proof.K.Run
import proofs.«129707_j15676630630501_1_alg».proof.Proof.K.Host
import proofs.«129707_j15676630630501_1_alg».proof.Proof.KI.Bridge
import proofs.«129707_j15676630630501_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ =>
  (θ_run Cert.Kernel.defs _ _).mono (fun _ h c => (h c).2)
    (Cert.Kernel.Hand.run_value (F := Bits) m ρ Cert.Kernel.Hand.sfx_keeps (fun c => Cert.Kernel.Hand.V_main_arg0 m c)
      (fun c => Cert.Kernel.Hand.V_main_arg1 m c) Cert.Kernel.Hand.tail_keeps_arg1)

/-- So does the idealized kernel program. -/
theorem frame_ki : Cert.frame_KernelIdeal := fun m ρ _ =>
  (θ_run Cert.KernelIdeal.defs _ _).mono (fun _ h c => (h c).2)
    (Cert.KernelIdeal.Hand.run_value (F := Ideal) m ρ Cert.KernelIdeal.Hand.sfx_keeps (fun c => Cert.KernelIdeal.Hand.V_main_arg0 m c)
      (fun c => Cert.KernelIdeal.Hand.V_main_arg1 m c) Cert.KernelIdeal.Hand.tail_keeps_arg1)

/-- And the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the reference's result stage of those
    arguments: the kernel program by its run and the agreement of its slices with the reference's row sums and positive
    sums, the reference by its own run. -/
theorem algebraic : Cert.algebraic_KernelIdeal_ReferenceIdeal := by
  intro m ρ m' ρ' _ hagree
  refine ⟨fun c => Cert.ReferenceIdeal.ReadP.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Hand.result_eq m c), (h c).2⟩)
      (Cert.KernelIdeal.Hand.run_value (F := Ideal) m ρ Cert.KernelIdeal.Hand.sfx_keeps (fun c => Cert.KernelIdeal.Hand.V_main_arg0 m c)
        (fun c => Cert.KernelIdeal.Hand.V_main_arg1 m c) Cert.KernelIdeal.Hand.tail_keeps_arg1)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v57_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
